-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4x262144 : Shape := ⟨3, ![8, 4, 262144]⟩
abbrev S_ : Shape := ⟨0, ![]⟩

class Facts : Prop where
  bcast_S_S8x4x262144 : S_.BroadcastsInDim S8x4x262144 (![] : Fin 0 → Fin S8x4x262144.rank)
  reducesTo_S8x4x262144_S_d0_1_2 : S8x4x262144.ReducesTo [0, 1, 2] S_
  h_S_ : 0 < S_.numel

variable [Facts]

def fn {F : FTy → Type} [FloatOps F] (main_arg0 : FVec F S8x4x262144 .f32) (main_arg1 : FVec F S8x4x262144 .f32) : IVec S_ 1 :=
  let main_v0 : FVec F S8x4x262144 .f32 := Host.absf main_arg0
  let main_cst : FVec F S_ .f32 := constant S_ .f32 0x7F800000#32
  let main_v1 : FVec F S8x4x262144 .f32 := broadcastInDim S8x4x262144 ![] bcast_S_S8x4x262144 main_cst
  let main_v2 : IVec S8x4x262144 1 := cmpf .olt main_v0 main_v1
  let main_c : IVec S_ 1 := constantI S_ 1 1#1
  let main_v3 : IVec S_ 1 := (fun x v => Host.reduce IntOp.andi x v reducesTo_S8x4x262144_S_d0_1_2 h_S_) main_v2 main_c
  let main_v4 : FVec F S8x4x262144 .f32 := Host.absf main_arg1
  let main_cst_0 : FVec F S_ .f32 := constant S_ .f32 0x7F800000#32
  let main_v5 : FVec F S8x4x262144 .f32 := broadcastInDim S8x4x262144 ![] bcast_S_S8x4x262144 main_cst_0
  let main_v6 : IVec S8x4x262144 1 := cmpf .olt main_v4 main_v5
  let main_c_1 : IVec S_ 1 := constantI S_ 1 1#1
  let main_v7 : IVec S_ 1 := (fun x v => Host.reduce IntOp.andi x v reducesTo_S8x4x262144_S_d0_1_2 h_S_) main_v6 main_c_1
  let main_v8 : IVec S_ 1 := andi main_v3 main_v7
  main_v8
-- ==== Kernel.lean ====
abbrev S8x4x262144 : Shape := ⟨3, ![8, 4, 262144]⟩
abbrev S24x4 : Shape := ⟨2, ![24, 4]⟩
abbrev S8x4x4 : Shape := ⟨3, ![8, 4, 4]⟩
abbrev S1x4x65536 : Shape := ⟨3, ![1, 4, 65536]⟩
abbrev S1x4x4 : Shape := ⟨3, ![1, 4, 4]⟩
abbrev S1x4 : Shape := ⟨2, ![1, 4]⟩
abbrev S4x1 : Shape := ⟨2, ![4, 1]⟩
abbrev S4x4 : Shape := ⟨2, ![4, 4]⟩
abbrev S4x65536 : Shape := ⟨2, ![4, 65536]⟩
abbrev S4 : Shape := ⟨1, ![4]⟩
abbrev S_ : Shape := ⟨0, ![]⟩
abbrev S24x4x1 : Shape := ⟨3, ![24, 4, 1]⟩
abbrev S24x4x2 : Shape := ⟨3, ![24, 4, 2]⟩
abbrev S8x24x4 : Shape := ⟨3, ![8, 24, 4]⟩
abbrev S8x24 : Shape := ⟨2, ![8, 24]⟩
abbrev S8 : Shape := ⟨1, ![8]⟩

abbrev nBuf : Space → Nat
  | .hbm => 31
  | .vmem => 9
  | .smem => 0
  | _ => 0

abbrev bufTy : (tb : Table) → Fin (tcTables nBuf tb) → BufTy
  | .hbm, ⟨0, _⟩ => ⟨S8x4x262144, .f32⟩
  | .hbm, ⟨1, _⟩ => ⟨S8x4x262144, .f32⟩
  | .hbm, ⟨2, _⟩ => ⟨S24x4, .i32⟩
  | .hbm, ⟨3, _⟩ => ⟨S8x4x4, .f32⟩
  | .hbm, ⟨4, _⟩ => ⟨S4, .i32⟩
  | .hbm, ⟨5, _⟩ => ⟨S1x4, .i32⟩
  | .hbm, ⟨6, _⟩ => ⟨S_, .i32⟩
  | .hbm, ⟨7, _⟩ => ⟨S1x4, .i32⟩
  | .hbm, ⟨8, _⟩ => ⟨S1x4, .i1⟩
  | .hbm, ⟨9, _⟩ => ⟨S_, .i32⟩
  | .hbm, ⟨10, _⟩ => ⟨S1x4, .i32⟩
  | .hbm, ⟨11, _⟩ => ⟨S1x4, .i32⟩
  | .hbm, ⟨12, _⟩ => ⟨S1x4, .i32⟩
  | .hbm, ⟨13, _⟩ => ⟨S_, .i32⟩
  | .hbm, ⟨14, _⟩ => ⟨S24x4, .i32⟩
  | .hbm, ⟨15, _⟩ => ⟨S24x4, .i1⟩
  | .hbm, ⟨16, _⟩ => ⟨S_, .i32⟩
  | .hbm, ⟨17, _⟩ => ⟨S24x4, .i32⟩
  | .hbm, ⟨18, _⟩ => ⟨S24x4, .i32⟩
  | .hbm, ⟨19, _⟩ => ⟨S24x4, .i32⟩
  | .hbm, ⟨20, _⟩ => ⟨S24x4, .i32⟩
  | .hbm, ⟨21, _⟩ => ⟨S24x4x1, .i32⟩
  | .hbm, ⟨22, _⟩ => ⟨S24x4x1, .i32⟩
  | .hbm, ⟨23, _⟩ => ⟨S24x4x2, .i32⟩
  | .hbm, ⟨24, _⟩ => ⟨S8x24x4, .f32⟩
  | .hbm, ⟨25, _⟩ => ⟨S_, .f32⟩
  | .hbm, ⟨26, _⟩ => ⟨S8x24, .f32⟩
  | .hbm, ⟨27, _⟩ => ⟨S_, .f32⟩
  | .hbm, ⟨28, _⟩ => ⟨S8, .f32⟩
  | .hbm, ⟨29, _⟩ => ⟨S_, .f32⟩
  | .hbm, ⟨30, _⟩ => ⟨S_, .f32⟩
  | .local _ .vmem, ⟨0, _⟩ => ⟨S1x4x65536, .f32⟩
  | .local _ .vmem, ⟨1, _⟩ => ⟨S1x4x65536, .f32⟩
  | .local _ .vmem, ⟨2, _⟩ => ⟨S1x4x65536, .f32⟩
  | .local _ .vmem, ⟨3, _⟩ => ⟨S1x4x65536, .f32⟩
  | .local _ .vmem, ⟨4, _⟩ => ⟨S1x4x4, .f32⟩
  | .local _ .vmem, ⟨5, _⟩ => ⟨S1x4x4, .f32⟩
  | .local _ .vmem, ⟨6, _⟩ => ⟨S1x4, .f32⟩
  | .local _ .vmem, ⟨7, _⟩ => ⟨S4x1, .f32⟩
  | .local _ .vmem, ⟨8, _⟩ => ⟨S4x4, .f32⟩
  | _, _ => ⟨S8x4x262144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_v8 : Ref sig .tc := ⟨.hbm, 14, rfl⟩
abbrev main_v9 : Ref sig .tc := ⟨.hbm, 15, rfl⟩
abbrev main_c_3 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v32 : BitVec 1 := Scalar.cmpi .eq arg1 c3_i32
  let v33 : BitVec 32 := Scalar.extui v32
  let c0_i32_20 : BitVec 32 := 0#32
  let v34 : BitVec 1 := Scalar.cmpi .ne v33 c0_i32_20
  v34

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x4_S1x4_0_0 : ∀ a, (![0, 0] : Fin 2 → Nat) a + S1x4.size a ≤ S1x4.size a
  h_S1x4 : 0 < S1x4.numel
  shapeCasts_S1x4_S1x4 : S1x4.ShapeCasts S1x4
  inb_S4x1_S4x1_0_0 : ∀ a, (![0, 0] : Fin 2 → Nat) a + S4x1.size a ≤ S4x1.size a
  h_S4x1 : 0 < S4x1.numel
  shapeCasts_S4x1_S4x1 : S4x1.ShapeCasts S4x1
  inb_S4x4_S4x4_0_0 : ∀ a, (![0, 0] : Fin 2 → Nat) a + S4x4.size a ≤ S4x4.size a
  h_S4x4 : 0 < S4x4.numel
  shapeCasts_S4x4_S4x4 : S4x4.ShapeCasts S4x4
  inb_S1x4x65536_S1x4x65536_0_0_0 : ∀ a, (![0, 0, 0] : Fin 3 → Nat) a + S1x4x65536.size a ≤ S1x4x65536.size a
  h_S1x4x65536 : 0 < S1x4x65536.numel
  shapeCasts_S1x4x65536_S4x65536 : S1x4x65536.ShapeCasts S4x65536
  reduces_S4x65536_S4 : S4x65536.Reduces [1] S4
  shapeCasts_S4_S4x1 : S4.ShapeCasts S4x1
  bitsLt_bf16_f32 : FTy.bits .bf16 < FTy.bits .f32
  transposes_S4x1_p1_0_S1x4 : S4x1.Transposes [1, 0] S1x4
  broadcasts_S4x1_S4x4 : S4x1.Broadcasts S4x4
  broadcasts_S1x4_S4x4 : S1x4.Broadcasts S4x4
  inb_S1x4x4_S1x4x4_0_0_0 : ∀ a, (![0, 0, 0] : Fin 3 → Nat) a + S1x4x4.size a ≤ S1x4x4.size a
  h_S1x4x4 : 0 < S1x4x4.numel
  shapeCasts_S1x4x4_S4x4 : S1x4x4.ShapeCasts S4x4
  shapeCasts_S4x4_S1x4x4 : S4x4.ShapeCasts S1x4x4
  bcast_S4_S1x4_1 : S4.BroadcastsInDim S1x4 (![1] : Fin 1 → Fin S1x4.rank)
  bcast_S_S1x4 : S_.BroadcastsInDim S1x4 (![] : Fin 0 → Fin S1x4.rank)
  bcast_S_S24x4 : S_.BroadcastsInDim S24x4 (![] : Fin 0 → Fin S24x4.rank)
  bcast_S1x4_S24x4_0_1 : S1x4.BroadcastsInDim S24x4 (![0, 1] : Fin 2 → Fin S24x4.rank)
  bcast_S24x4_S24x4x1_0_1 : S24x4.BroadcastsInDim S24x4x1 (![0, 1] : Fin 2 → Fin S24x4x1.rank)
  concatenates_S24x4x1_S24x4x1_S24x4x2_d2 : Shape.Concatenates [S24x4x1, S24x4x1] S24x4x2 2
  reducesTo_S8x24x4_S8x24_d2 : S8x24x4.ReducesTo [2] S8x24
  h_S_ : 0 < S_.numel
  reducesTo_S8x24_S8_d1 : S8x24.ReducesTo [1] S8
  reducesTo_S8_S_d0 : S8.ReducesTo [0] S_
  dot_S4x65536_S4x65536_S4x4_1_1_0_0_n_n_wf : DotDims.WF S4x65536 S4x65536 S4x4 [1] [1] [0] [0] [] []
  gather_S8x4x4_S24x4x2_S8x24x4_0_12_n_n_12_2_811_wf : GatherDims.WF S8x4x4 S24x4x2 S8x24x4 [0] [1, 2] [] [1, 2] [] 2 ![8, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x65536.size a ≤ S8x4x262144.size a
  hwx0_0 : ∀ i : grid0.Coords, EltTy.bits .f32 = 32 ∨ (Rect.block (s := S8x4x262144) S1x4x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x65536.size a ≤ S8x4x262144.size a
  hwx0_1 : ∀ i : grid0.Coords, EltTy.bits .f32 = 32 ∨ (Rect.block (s := S8x4x262144) S1x4x65536.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x4.size a ≤ S8x4x4.size a
  hwx0_2 : ∀ i : grid0.Coords, EltTy.bits .f32 = 32 ∨ (Rect.block (s := S8x4x4) S1x4x4.size (cc0_transform_2 i) (hinb0_2 i)).WholeWords (EltTy.packing .f32)

variable [Facts₀]

def dot_S4x65536_S4x65536_S4x4_1_1_0_0_n_n : DotDims S4x65536 S4x65536 S4x4 where
  lhsContracting := [1]
  rhsContracting := [1]
  lhsNonContracting := [0]
  rhsNonContracting := [0]
  lhsBatch := []
  rhsBatch := []
  wf := dot_S4x65536_S4x65536_S4x4_1_1_0_0_n_n_wf
def gather_S8x4x4_S24x4x2_S8x24x4_0_12_n_n_12_2_811 : GatherDims S8x4x4 S24x4x2 S8x24x4 where
  offsetDims := [0]
  collapsedSliceDims := [1, 2]
  operandBatchingDims := []
  startIndicesBatchingDims := []
  startIndexMap := [1, 2]
  indexVectorDim := 2
  sliceSizes := ![8, 1, 1]
  wf := gather_S8x4x4_S24x4x2_S8x24x4_0_12_n_n_12_2_811_wf

abbrev win0_0 : Pipeline.Window sig grid0 :=
  Pipeline.Window.ofSpec (Memref.whole main_arg0) S1x4x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4x65536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x4x4.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x4x262144 : Shape := ⟨3, ![8, 4, 262144]⟩
abbrev S24x4 : Shape := ⟨2, ![24, 4]⟩
abbrev S8x1x4x262144 : Shape := ⟨4, ![8, 1, 4, 262144]⟩
abbrev S8x4x1x262144 : Shape := ⟨4, ![8, 4, 1, 262144]⟩
abbrev S8x4x4x262144 : Shape := ⟨4, ![8, 4, 4, 262144]⟩
abbrev S_ : Shape := ⟨0, ![]⟩
abbrev S8x4x4 : Shape := ⟨3, ![8, 4, 4]⟩
abbrev S4 : Shape := ⟨1, ![4]⟩
abbrev S1x4 : Shape := ⟨2, ![1, 4]⟩
abbrev S24x4x1 : Shape := ⟨3, ![24, 4, 1]⟩
abbrev S24x4x2 : Shape := ⟨3, ![24, 4, 2]⟩
abbrev S8x24x4 : Shape := ⟨3, ![8, 24, 4]⟩
abbrev S8x24 : Shape := ⟨2, ![8, 24]⟩
abbrev S8 : Shape := ⟨1, ![8]⟩

abbrev nBuf : Space → Nat
  | .hbm => 41
  | .vmem => 0
  | .smem => 0
  | _ => 0

abbrev bufTy : (tb : Table) → Fin (tcTables nBuf tb) → BufTy
  | .hbm, ⟨0, _⟩ => ⟨S8x4x262144, .f32⟩
  | .hbm, ⟨1, _⟩ => ⟨S8x4x262144, .f32⟩
  | .hbm, ⟨2, _⟩ => ⟨S24x4, .i32⟩
  | .hbm, ⟨3, _⟩ => ⟨S8x1x4x262144, .f32⟩
  | .hbm, ⟨4, _⟩ => ⟨S8x4x1x262144, .f32⟩
  | .hbm, ⟨5, _⟩ => ⟨S8x4x4x262144, .f32⟩
  | .hbm, ⟨6, _⟩ => ⟨S8x4x4x262144, .f32⟩
  | .hbm, ⟨7, _⟩ => ⟨S8x4x4x262144, .f32⟩
  | .hbm, ⟨8, _⟩ => ⟨S8x4x4x262144, .f32⟩
  | .hbm, ⟨9, _⟩ => ⟨S_, .f32⟩
  | .hbm, ⟨10, _⟩ => ⟨S8x4x4, .f32⟩
  | .hbm, ⟨11, _⟩ => ⟨S_, .f32⟩
  | .hbm, ⟨12, _⟩ => ⟨S8x4x4, .f32⟩
  | .hbm, ⟨13, _⟩ => ⟨S8x4x4, .f32⟩
  | .hbm, ⟨14, _⟩ => ⟨S4, .i32⟩
  | .hbm, ⟨15, _⟩ => ⟨S1x4, .i32⟩
  | .hbm, ⟨16, _⟩ => ⟨S_, .i32⟩
  | .hbm, ⟨17, _⟩ => ⟨S1x4, .i32⟩
  | .hbm, ⟨18, _⟩ => ⟨S1x4, .i1⟩
  | .hbm, ⟨19, _⟩ => ⟨S_, .i32⟩
  | .hbm, ⟨20, _⟩ => ⟨S1x4, .i32⟩
  | .hbm, ⟨21, _⟩ => ⟨S1x4, .i32⟩
  | .hbm, ⟨22, _⟩ => ⟨S1x4, .i32⟩
  | .hbm, ⟨23, _⟩ => ⟨S_, .i32⟩
  | .hbm, ⟨24, _⟩ => ⟨S24x4, .i32⟩
  | .hbm, ⟨25, _⟩ => ⟨S24x4, .i1⟩
  | .hbm, ⟨26, _⟩ => ⟨S_, .i32⟩
  | .hbm, ⟨27, _⟩ => ⟨S24x4, .i32⟩
  | .hbm, ⟨28, _⟩ => ⟨S24x4, .i32⟩
  | .hbm, ⟨29, _⟩ => ⟨S24x4, .i32⟩
  | .hbm, ⟨30, _⟩ => ⟨S24x4, .i32⟩
  | .hbm, ⟨31, _⟩ => ⟨S24x4x1, .i32⟩
  | .hbm, ⟨32, _⟩ => ⟨S24x4x1, .i32⟩
  | .hbm, ⟨33, _⟩ => ⟨S24x4x2, .i32⟩
  | .hbm, ⟨34, _⟩ => ⟨S8x24x4, .f32⟩
  | .hbm, ⟨35, _⟩ => ⟨S_, .f32⟩
  | .hbm, ⟨36, _⟩ => ⟨S8x24, .f32⟩
  | .hbm, ⟨37, _⟩ => ⟨S_, .f32⟩
  | .hbm, ⟨38, _⟩ => ⟨S8, .f32⟩
  | .hbm, ⟨39, _⟩ => ⟨S_, .f32⟩
  | .hbm, ⟨40, _⟩ => ⟨S_, .f32⟩
  | _, _ => ⟨S8x4x262144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_3 : Ref sig .tc := ⟨.hbm, 23, rfl⟩
abbrev main_v16 : Ref sig .tc := ⟨.hbm, 24, rfl⟩
abbrev main_v17 : Ref sig .tc := ⟨.hbm, 25, rfl⟩
abbrev main_c_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_cst_7 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  bcast_S8x4x262144_S8x1x4x262144_0_2_3 : S8x4x262144.BroadcastsInDim S8x1x4x262144 (![0, 2, 3] : Fin 3 → Fin S8x1x4x262144.rank)
  bcast_S8x4x262144_S8x4x1x262144_0_1_3 : S8x4x262144.BroadcastsInDim S8x4x1x262144 (![0, 1, 3] : Fin 3 → Fin S8x4x1x262144.rank)
  bcast_S8x1x4x262144_S8x4x4x262144_0_1_2_3 : S8x1x4x262144.BroadcastsInDim S8x4x4x262144 (![0, 1, 2, 3] : Fin 4 → Fin S8x4x4x262144.rank)
  bcast_S8x4x1x262144_S8x4x4x262144_0_1_2_3 : S8x4x1x262144.BroadcastsInDim S8x4x4x262144 (![0, 1, 2, 3] : Fin 4 → Fin S8x4x4x262144.rank)
  reducesTo_S8x4x4x262144_S8x4x4_d3 : S8x4x4x262144.ReducesTo [3] S8x4x4
  h_S_ : 0 < S_.numel
  bcast_S_S8x4x4 : S_.BroadcastsInDim S8x4x4 (![] : Fin 0 → Fin S8x4x4.rank)
  bcast_S4_S1x4_1 : S4.BroadcastsInDim S1x4 (![1] : Fin 1 → Fin S1x4.rank)
  bcast_S_S1x4 : S_.BroadcastsInDim S1x4 (![] : Fin 0 → Fin S1x4.rank)
  bcast_S_S24x4 : S_.BroadcastsInDim S24x4 (![] : Fin 0 → Fin S24x4.rank)
  bcast_S1x4_S24x4_0_1 : S1x4.BroadcastsInDim S24x4 (![0, 1] : Fin 2 → Fin S24x4.rank)
  bcast_S24x4_S24x4x1_0_1 : S24x4.BroadcastsInDim S24x4x1 (![0, 1] : Fin 2 → Fin S24x4x1.rank)
  concatenates_S24x4x1_S24x4x1_S24x4x2_d2 : Shape.Concatenates [S24x4x1, S24x4x1] S24x4x2 2
  reducesTo_S8x24x4_S8x24_d2 : S8x24x4.ReducesTo [2] S8x24
  reducesTo_S8x24_S8_d1 : S8x24.ReducesTo [1] S8
  reducesTo_S8_S_d0 : S8.ReducesTo [0] S_
  gather_S8x4x4_S24x4x2_S8x24x4_0_12_n_n_12_2_811_wf : GatherDims.WF S8x4x4 S24x4x2 S8x24x4 [0] [1, 2] [] [1, 2] [] 2 ![8, 1, 1]

variable [Facts₀]

def gather_S8x4x4_S24x4x2_S8x24x4_0_12_n_n_12_2_811 : GatherDims S8x4x4 S24x4x2 S8x24x4 where
  offsetDims := [0]
  collapsedSliceDims := [1, 2]
  operandBatchingDims := []
  startIndicesBatchingDims := []
  startIndexMap := [1, 2]
  indexVectorDim := 2
  sliceSizes := ![8, 1, 1]
  wf := gather_S8x4x4_S24x4x2_S8x24x4_0_12_n_n_12_2_811_wf

class Facts : Prop extends Facts₀ where

variable [Facts]
-- ==== Proof.Pieces.lean ====
/-
  What each control case of the kernel body leaves behind, as values.

  The body keeps three running sums in scratch — Σ x² per channel of `x` (a row), Σ y² per channel of `y` (a column),
  Σ y·x per channel pair (a square) — and updates each by the current tile's contribution. At a batch's first tile it
  first resets them to zero; at a batch's last tile it also forms the output block from the updated sums.
-/
import proofs.«114583_j58583353917585_1_alg».proof.Proof.Gen.KernelIdeal.Frame
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.SL.Sem
open Cert.KernelIdeal Cert.KernelIdeal.Gen

variable {F : FTy → Type} [FloatOps F]

/-- The all-zero offset of a rank-2 rectangle, as the constant function. -/
private theorem hz2 : (![0, 0] : Fin 2 → Nat) = fun _ => 0 := funext fun a => by fin_cases a <;> rfl

/-- The all-zero offset of a rank-3 rectangle, as the constant function. -/
private theorem hz3 : (![0, 0, 0] : Fin 3 → Nat) = fun _ => 0 := funext fun a => by fin_cases a <;> rfl

/-! ## First tile of a batch: reset, then update -/

theorem first_sx (c : Dev nD) (i : grid0.Coords) (arg2 : Memref sig .tc .vmem S1x4x65536 .f32) (harg2 : arg2.IsWhole) (arg3 : Memref sig .tc .vmem S1x4x65536 .f32) (harg3 : arg3.IsWhole) (arg4 : Memref sig .tc .vmem S1x4x4 .f32) (harg4 : arg4.IsWhole) (arg5 : Memref sig .tc .vmem S1x4 .f32) (harg5 : arg5.IsWhole) (arg6 : Memref sig .tc .vmem S4x1 .f32) (harg6 : arg6.IsWhole) (arg7 : Memref sig .tc .vmem S4x4 .f32) (harg7 : arg7.IsWhole) (hc0 : cond0_0 i) (hc1 : ¬cond0_1 i) (x0 : Vec F S1x4x65536 .f32) (x1 : Vec F S1x4x65536 .f32) :
    sout0_A_0 c i arg2 harg2 arg3 harg3 arg4 harg4 arg5 harg5 arg6 harg6 arg7 harg7 hc0 hc1 x0 x1 = k0_pay7 x0 k0_pay2 := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S1x4) hz2, View.readCov_unit_zero (S := S1x4) _ hz2]
  simp only [View.readAt_eq_ld, harg2.read_unread, harg3.read_unread, harg5.read_unread, harg6.read_unread, harg7.read_unread,
    View.ld_unit_zero (S := S1x4x65536) hz3, View.ld_unit_zero (S := S1x4) hz2, View.ld_unit_zero (S := S4x1) hz2, View.ld_unit_zero (S := S4x4) hz2]

theorem first_sy (c : Dev nD) (i : grid0.Coords) (arg2 : Memref sig .tc .vmem S1x4x65536 .f32) (harg2 : arg2.IsWhole) (arg3 : Memref sig .tc .vmem S1x4x65536 .f32) (harg3 : arg3.IsWhole) (arg4 : Memref sig .tc .vmem S1x4x4 .f32) (harg4 : arg4.IsWhole) (arg5 : Memref sig .tc .vmem S1x4 .f32) (harg5 : arg5.IsWhole) (arg6 : Memref sig .tc .vmem S4x1 .f32) (harg6 : arg6.IsWhole) (arg7 : Memref sig .tc .vmem S4x4 .f32) (harg7 : arg7.IsWhole) (hc0 : cond0_0 i) (hc1 : ¬cond0_1 i) (x0 : Vec F S1x4x65536 .f32) (x1 : Vec F S1x4x65536 .f32) :
    sout0_A_1 c i arg2 harg2 arg3 harg3 arg4 harg4 arg5 harg5 arg6 harg6 arg7 harg7 hc0 hc1 x0 x1 = k0_pay8 x1 k0_pay3 := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S4x1) hz2, View.readCov_unit_zero (S := S4x1) _ hz2]
  simp only [View.readAt_eq_ld, harg2.read_unread, harg3.read_unread, harg5.read_unread, harg6.read_unread, harg7.read_unread,
    View.ld_unit_zero (S := S1x4x65536) hz3, View.ld_unit_zero (S := S1x4) hz2, View.ld_unit_zero (S := S4x1) hz2, View.ld_unit_zero (S := S4x4) hz2]

theorem first_cross (c : Dev nD) (i : grid0.Coords) (arg2 : Memref sig .tc .vmem S1x4x65536 .f32) (harg2 : arg2.IsWhole) (arg3 : Memref sig .tc .vmem S1x4x65536 .f32) (harg3 : arg3.IsWhole) (arg4 : Memref sig .tc .vmem S1x4x4 .f32) (harg4 : arg4.IsWhole) (arg5 : Memref sig .tc .vmem S1x4 .f32) (harg5 : arg5.IsWhole) (arg6 : Memref sig .tc .vmem S4x1 .f32) (harg6 : arg6.IsWhole) (arg7 : Memref sig .tc .vmem S4x4 .f32) (harg7 : arg7.IsWhole) (hc0 : cond0_0 i) (hc1 : ¬cond0_1 i) (x0 : Vec F S1x4x65536 .f32) (x1 : Vec F S1x4x65536 .f32) :
    sout0_A_2 c i arg2 harg2 arg3 harg3 arg4 harg4 arg5 harg5 arg6 harg6 arg7 harg7 hc0 hc1 x0 x1 = k0_pay9 x0 x1 k0_pay4 := by
  unfold sout0_A_2
  rw [View.read_writes_eq_canon _ _ _ (scover0_A_2 c i arg2 harg2 arg3 harg3 arg4 harg4 arg5 harg5 arg6 harg6 arg7 harg7 hc0 hc1 x0 x1)]
  unfold kernelRun0_A
  dsimp only
  sl_unfold_words
  rw [View.canon_cons_unit_zero (S := S4x4) hz2, View.readCov_unit_zero (S := S4x4) _ hz2]
  simp only [View.readAt_eq_ld, harg2.read_unread, harg3.read_unread, harg5.read_unread, harg6.read_unread, harg7.read_unread,
    View.ld_unit_zero (S := S1x4x65536) hz3, View.ld_unit_zero (S := S1x4) hz2, View.ld_unit_zero (S := S4x1) hz2, View.ld_unit_zero (S := S4x4) hz2]

/-! ## A middle tile: update what the tile before left -/

theorem mid_sx (c : Dev nD) (i : grid0.Coords) (arg2 : Memref sig .tc .vmem S1x4x65536 .f32) (harg2 : arg2.IsWhole) (arg3 : Memref sig .tc .vmem S1x4x65536 .f32) (harg3 : arg3.IsWhole) (arg4 : Memref sig .tc .vmem S1x4x4 .f32) (harg4 : arg4.IsWhole) (arg5 : Memref sig .tc .vmem S1x4 .f32) (harg5 : arg5.IsWhole) (arg6 : Memref sig .tc .vmem S4x1 .f32) (harg6 : arg6.IsWhole) (arg7 : Memref sig .tc .vmem S4x4 .f32) (harg7 : arg7.IsWhole) (hc0 : ¬cond0_0 i) (hc1 : ¬cond0_1 i) (x0 : Vec F S1x4x65536 .f32) (x1 : Vec F S1x4x65536 .f32) (xs0 : Vec F S1x4 .f32) (xs1 : Vec F S4x1 .f32) (xs2 : Vec F S4x4 .f32) :
    sout0_B_0 c i arg2 harg2 arg3 harg3 arg4 harg4 arg5 harg5 arg6 harg6 arg7 harg7 hc0 hc1 x0 x1 xs0 xs1 xs2 = k0_pay7 x0 xs0 := by
  unfold sout0_B_0
  rw [View.read_writes_eq_canon _ _ _ (scover0_B_0 c i arg2 harg2 arg3 harg3 arg4 harg4 arg5 harg5 arg6 harg6 arg7 harg7 hc0 hc1 x0 x1 xs0 xs1 xs2)]
  unfold kernelRun0_B
  dsimp only
  sl_unfold_words
  rw [View.canon_unit_zero hz2]
  simp only [View.readAt_eq_ld, harg2.read_unread, harg3.read_unread, harg5.read_unread, harg6.read_unread, harg7.read_unread,
    View.ld_unit_zero (S := S1x4x65536) hz3, View.ld_unit_zero (S := S1x4) hz2, View.ld_unit_zero (S := S4x1) hz2, View.ld_unit_zero (S := S4x4) hz2]

theorem mid_sy (c : Dev nD) (i : grid0.Coords) (arg2 : Memref sig .tc .vmem S1x4x65536 .f32) (harg2 : arg2.IsWhole) (arg3 : Memref sig .tc .vmem S1x4x65536 .f32) (harg3 : arg3.IsWhole) (arg4 : Memref sig .tc .vmem S1x4x4 .f32) (harg4 : arg4.IsWhole) (arg5 : Memref sig .tc .vmem S1x4 .f32) (harg5 : arg5.IsWhole) (arg6 : Memref sig .tc .vmem S4x1 .f32) (harg6 : arg6.IsWhole) (arg7 : Memref sig .tc .vmem S4x4 .f32) (harg7 : arg7.IsWhole) (hc0 : ¬cond0_0 i) (hc1 : ¬cond0_1 i) (x0 : Vec F S1x4x65536 .f32) (x1 : Vec F S1x4x65536 .f32) (xs0 : Vec F S1x4 .f32) (xs1 : Vec F S4x1 .f32) (xs2 : Vec F S4x4 .f32) :
    sout0_B_1 c i arg2 harg2 arg3 harg3 arg4 harg4 arg5 harg5 arg6 harg6 arg7 harg7 hc0 hc1 x0 x1 xs0 xs1 xs2 = k0_pay8 x1 xs1 := by
  unfold sout0_B_1
  rw [View.read_writes_eq_canon _ _ _ (scover0_B_1 c i arg2 harg2 arg3 harg3 arg4 harg4 arg5 harg5 arg6 harg6 arg7 harg7 hc0 hc1 x0 x1 xs0 xs1 xs2)]
  unfold kernelRun0_B
  dsimp only
  sl_unfold_words
  rw [View.canon_unit_zero hz2]
  simp only [View.readAt_eq_ld, harg2.read_unread, harg3.read_unread, harg5.read_unread, harg6.read_unread, harg7.read_unread,
    View.ld_unit_zero (S := S1x4x65536) hz3, View.ld_unit_zero (S := S1x4) hz2, View.ld_unit_zero (S := S4x1) hz2, View.ld_unit_zero (S := S4x4) hz2]

theorem mid_cross (c : Dev nD) (i : grid0.Coords) (arg2 : Memref sig .tc .vmem S1x4x65536 .f32) (harg2 : arg2.IsWhole) (arg3 : Memref sig .tc .vmem S1x4x65536 .f32) (harg3 : arg3.IsWhole) (arg4 : Memref sig .tc .vmem S1x4x4 .f32) (harg4 : arg4.IsWhole) (arg5 : Memref sig .tc .vmem S1x4 .f32) (harg5 : arg5.IsWhole) (arg6 : Memref sig .tc .vmem S4x1 .f32) (harg6 : arg6.IsWhole) (arg7 : Memref sig .tc .vmem S4x4 .f32) (harg7 : arg7.IsWhole) (hc0 : ¬cond0_0 i) (hc1 : ¬cond0_1 i) (x0 : Vec F S1x4x65536 .f32) (x1 : Vec F S1x4x65536 .f32) (xs0 : Vec F S1x4 .f32) (xs1 : Vec F S4x1 .f32) (xs2 : Vec F S4x4 .f32) :
    sout0_B_2 c i arg2 harg2 arg3 harg3 arg4 harg4 arg5 harg5 arg6 harg6 arg7 harg7 hc0 hc1 x0 x1 xs0 xs1 xs2 = k0_pay9 x0 x1 xs2 := by
  unfold sout0_B_2
  rw [View.read_writes_eq_canon _ _ _ (scover0_B_2 c i arg2 harg2 arg3 harg3 arg4 harg4 arg5 harg5 arg6 harg6 arg7 harg7 hc0 hc1 x0 x1 xs0 xs1 xs2)]
  unfold kernelRun0_B
  dsimp only
  sl_unfold_words
  rw [View.canon_unit_zero hz2]
  simp only [View.readAt_eq_ld, harg2.read_unread, harg3.read_unread, harg5.read_unread, harg6.read_unread, harg7.read_unread,
    View.ld_unit_zero (S := S1x4x65536) hz3, View.ld_unit_zero (S := S1x4) hz2, View.ld_unit_zero (S := S4x1) hz2, View.ld_unit_zero (S := S4x4) hz2]

/-! ## Last tile of a batch: update, then form the output block from the updated sums -/

theorem last_sx (c : Dev nD) (i : grid0.Coords) (arg2 : Memref sig .tc .vmem S1x4x65536 .f32) (harg2 : arg2.IsWhole) (arg3 : Memref sig .tc .vmem S1x4x65536 .f32) (harg3 : arg3.IsWhole) (arg4 : Memref sig .tc .vmem S1x4x4 .f32) (harg4 : arg4.IsWhole) (arg5 : Memref sig .tc .vmem S1x4 .f32) (harg5 : arg5.IsWhole) (arg6 : Memref sig .tc .vmem S4x1 .f32) (harg6 : arg6.IsWhole) (arg7 : Memref sig .tc .vmem S4x4 .f32) (harg7 : arg7.IsWhole) (hc0 : ¬cond0_0 i) (hc1 : cond0_1 i) (x0 : Vec F S1x4x65536 .f32) (x1 : Vec F S1x4x65536 .f32) (xs0 : Vec F S1x4 .f32) (xs1 : Vec F S4x1 .f32) (xs2 : Vec F S4x4 .f32) :
    sout0_C_0 c i arg2 harg2 arg3 harg3 arg4 harg4 arg5 harg5 arg6 harg6 arg7 harg7 hc0 hc1 x0 x1 xs0 xs1 xs2 = k0_pay7 x0 xs0 := by
  unfold sout0_C_0
  rw [View.read_writes_eq_canon _ _ _ (scover0_C_0 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz2]
  simp only [View.readAt_eq_ld, harg2.read_unread, harg3.read_unread, harg5.read_unread, harg6.read_unread, harg7.read_unread,
    View.ld_unit_zero (S := S1x4x65536) hz3, View.ld_unit_zero (S := S1x4) hz2, View.ld_unit_zero (S := S4x1) hz2, View.ld_unit_zero (S := S4x4) hz2]

theorem last_sy (c : Dev nD) (i : grid0.Coords) (arg2 : Memref sig .tc .vmem S1x4x65536 .f32) (harg2 : arg2.IsWhole) (arg3 : Memref sig .tc .vmem S1x4x65536 .f32) (harg3 : arg3.IsWhole) (arg4 : Memref sig .tc .vmem S1x4x4 .f32) (harg4 : arg4.IsWhole) (arg5 : Memref sig .tc .vmem S1x4 .f32) (harg5 : arg5.IsWhole) (arg6 : Memref sig .tc .vmem S4x1 .f32) (harg6 : arg6.IsWhole) (arg7 : Memref sig .tc .vmem S4x4 .f32) (harg7 : arg7.IsWhole) (hc0 : ¬cond0_0 i) (hc1 : cond0_1 i) (x0 : Vec F S1x4x65536 .f32) (x1 : Vec F S1x4x65536 .f32) (xs0 : Vec F S1x4 .f32) (xs1 : Vec F S4x1 .f32) (xs2 : Vec F S4x4 .f32) :
    sout0_C_1 c i arg2 harg2 arg3 harg3 arg4 harg4 arg5 harg5 arg6 harg6 arg7 harg7 hc0 hc1 x0 x1 xs0 xs1 xs2 = k0_pay8 x1 xs1 := by
  unfold sout0_C_1
  rw [View.read_writes_eq_canon _ _ _ (scover0_C_1 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz2]
  simp only [View.readAt_eq_ld, harg2.read_unread, harg3.read_unread, harg5.read_unread, harg6.read_unread, harg7.read_unread,
    View.ld_unit_zero (S := S1x4x65536) hz3, View.ld_unit_zero (S := S1x4) hz2, View.ld_unit_zero (S := S4x1) hz2, View.ld_unit_zero (S := S4x4) hz2]

theorem last_cross (c : Dev nD) (i : grid0.Coords) (arg2 : Memref sig .tc .vmem S1x4x65536 .f32) (harg2 : arg2.IsWhole) (arg3 : Memref sig .tc .vmem S1x4x65536 .f32) (harg3 : arg3.IsWhole) (arg4 : Memref sig .tc .vmem S1x4x4 .f32) (harg4 : arg4.IsWhole) (arg5 : Memref sig .tc .vmem S1x4 .f32) (harg5 : arg5.IsWhole) (arg6 : Memref sig .tc .vmem S4x1 .f32) (harg6 : arg6.IsWhole) (arg7 : Memref sig .tc .vmem S4x4 .f32) (harg7 : arg7.IsWhole) (hc0 : ¬cond0_0 i) (hc1 : cond0_1 i) (x0 : Vec F S1x4x65536 .f32) (x1 : Vec F S1x4x65536 .f32) (xs0 : Vec F S1x4 .f32) (xs1 : Vec F S4x1 .f32) (xs2 : Vec F S4x4 .f32) :
    sout0_C_2 c i arg2 harg2 arg3 harg3 arg4 harg4 arg5 harg5 arg6 harg6 arg7 harg7 hc0 hc1 x0 x1 xs0 xs1 xs2 = k0_pay9 x0 x1 xs2 := by
  unfold sout0_C_2
  rw [View.read_writes_eq_canon _ _ _ (scover0_C_2 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz2]
  simp only [View.readAt_eq_ld, harg2.read_unread, harg3.read_unread, harg5.read_unread, harg6.read_unread, harg7.read_unread,
    View.ld_unit_zero (S := S1x4x65536) hz3, View.ld_unit_zero (S := S1x4) hz2, View.ld_unit_zero (S := S4x1) hz2, View.ld_unit_zero (S := S4x4) hz2]

theorem last_out (c : Dev nD) (i : grid0.Coords) (arg2 : Memref sig .tc .vmem S1x4x65536 .f32) (harg2 : arg2.IsWhole) (arg3 : Memref sig .tc .vmem S1x4x65536 .f32) (harg3 : arg3.IsWhole) (arg4 : Memref sig .tc .vmem S1x4x4 .f32) (harg4 : arg4.IsWhole) (arg5 : Memref sig .tc .vmem S1x4 .f32) (harg5 : arg5.IsWhole) (arg6 : Memref sig .tc .vmem S4x1 .f32) (harg6 : arg6.IsWhole) (arg7 : Memref sig .tc .vmem S4x4 .f32) (harg7 : arg7.IsWhole) (hc0 : ¬cond0_0 i) (hc1 : cond0_1 i) (x0 : Vec F S1x4x65536 .f32) (x1 : Vec F S1x4x65536 .f32) (xs0 : Vec F S1x4 .f32) (xs1 : Vec F S4x1 .f32) (xs2 : Vec F S4x4 .f32) :
    out0_C_2 c i arg2 harg2 arg3 harg3 arg4 harg4 arg5 harg5 arg6 harg6 arg7 harg7 hc0 hc1 x0 x1 xs0 xs1 xs2 = k0_pay1 (k0_pay8 x1 xs1) (k0_pay7 x0 xs0) (k0_pay9 x0 x1 xs2) := by
  unfold out0_C_2
  rw [View.read_writes_eq_canon _ _ _ (cover0_C_2 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz3]
  simp only [View.readAt_eq_ld, harg2.read_unread, harg3.read_unread, harg5.read_unread, harg6.read_unread, harg7.read_unread,
    View.ld_unit_zero (S := S1x4x65536) hz3, View.ld_unit_zero (S := S1x4) hz2, View.ld_unit_zero (S := S4x1) hz2, View.ld_unit_zero (S := S4x4) hz2,
    View.readCov_unit_zero (S := S4x1) _ hz2, View.readCov_unit_zero (S := S1x4) _ hz2, View.readCov_unit_zero (S := S4x4) _ hz2]

end Cert.KernelIdeal.Hand

end
-- ==== Proof.Spec.lean ====
/-
  The mathematics both programs compute, stated once over the extended reals with no program in sight.

  For a batch `b` and channels `i` (of `y`) and `j` (of `x`), over the 262144 samples of the last axis:
    • one side forms the three sums  Σ y²,  Σ x²,  Σ y·x  — each gathered tile by tile, four tiles of 65536 samples —
      and returns  (Σ y² + Σ x² − 2 · Σ y·x) / N;
    • the other returns  (0 + Σ (x − y)²) / N.
  Over finite reals the two numerators agree by expanding the square; at an infinite entry `x − y` need not distribute,
  which is why the agreement is stated for real-valued arrays only.
-/
import Idealize.ShloMosaic.Lib.ValueIdx
import Idealize.ShloMosaic.PureOps.Ideal.Laws

noncomputable section

open scoped BigOperators

namespace Cert.PairDist

open Idealize.ShloMosaic Idealize.ShloMosaic.ValueIdx

/-- The two argument arrays: batch × channel × sample. -/
abbrev SArg : Shape := ⟨3, ![8, 4, 262144]⟩
/-- The table of mean squared distances: batch × channel of `y` × channel of `x`. -/
abbrev SOut : Shape := ⟨3, ![8, 4, 4]⟩

/-- Sample `l` of tile `k`: position `65536·k + l` of the last axis. -/
def sample (k : Fin 4) (l : Fin 65536) : Fin 262144 := ⟨65536 * k.val + l.val, by have := k.isLt; have := l.isLt; omega⟩

/-- Σ over the four tiles, then over a tile's samples, of the squares of channel `ch` of batch `b`. -/
def sqSum (X : SArg.Idx → EReal) (b : Fin 8) (ch : Fin 4) : EReal :=
  ∑ k : Fin 4, ∑ l : Fin 65536, X (ix3 b ch (sample k l)) * X (ix3 b ch (sample k l))

/-- Σ over tiles and samples of `y`'s channel `i` times `x`'s channel `j`. -/
def crossSum (X Y : SArg.Idx → EReal) (b : Fin 8) (i j : Fin 4) : EReal :=
  ∑ k : Fin 4, ∑ l : Fin 65536, Y (ix3 b i (sample k l)) * X (ix3 b j (sample k l))

/-- The factor 2 as both programs spell it. -/
def two : EReal := Ideal.ofBits .f32 0x40000000#32
/-- The number of samples, 262144, as both programs spell it. -/
def len : EReal := Ideal.ofBits .f32 0x48800000#32

/-- The expanded form: (Σ y² + Σ x² − 2 Σ y·x) / N at `(b, i, j)`. -/
def expanded (X Y : SArg.Idx → EReal) : SOut.Idx → EReal := fun d =>
  Ideal.div ((sqSum Y (d 0) (d 1) + sqSum X (d 0) (d 2)) - two * crossSum X Y (d 0) (d 1) (d 2)) len

/-- The direct form: (0 + Σ (x − y)²) / N at `(b, i, j)`. -/
def direct (X Y : SArg.Idx → EReal) : SOut.Idx → EReal := fun d =>
  Ideal.div (Ideal.ofBits .f32 0x00000000#32
    + ∑ t : Fin 262144, (X (ix3 (d 0) (d 2) t) - Y (ix3 (d 0) (d 1) t)) * (X (ix3 (d 0) (d 2) t) - Y (ix3 (d 0) (d 1) t))) len

end Cert.PairDist

end
-- ==== Proof.LibKeepdims.lean ====
/-
  A column kept as a trailing unit axis, read at coordinates: the three layout steps of a row reduction with the reduced
  axis kept (`sum(axis=1, keepdims=True)`) followed by a broadcast back along the rows.

  • an `[a]` vector viewed as an `[a, 1]` column reads, at `(i, u)`, the vector at `i`;
  • an `[a, 1]` column broadcast to `[a, b]` reads, at `(p, c)`, the column at `(p, 0)`;
  • a sum of an `[a, b]` array along its second axis reads, at `i`, the sum over `n` of the array at `(i, n)`.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the extended reals, the sum of an `[a, b]` array along its second axis (started from the zero word) reads, at row
    `i`, the sum over `n` of the entries `(i, n)`. -/
theorem rowSum_apply {a b : ℕ} (src : FVec Ideal ⟨2, ![a, b]⟩ .f32) (h : (⟨2, ![a, b]⟩ : Shape).Reduces [1] ⟨1, ![a]⟩)
    (hφ : FKind.Formats FTy.f32) (hacc : (0x00000000#32 : BitVec 32) = 0x00000000#32) (i : Fin a) :
    multiReduction (F := Ideal) .add [1] ⟨1, ![a]⟩ src 0x00000000#32 h hφ hacc (ix1 i) = ∑ n : Fin b, src (ix2 i n) :=
  (Ideal.multiReduction_add_single src 0x00000000#32 h hφ hacc (ix1 i)).trans
    (Finset.sum_congr rfl fun k _ => congrArg src (funext fun ax => Fin.ext (by
      match ax with
      | ⟨0, _⟩ => rfl
      | ⟨1, _⟩ => rfl)))

end Cert.Keepdims
-- ==== Proof.PayAt.lean ====
/-
  The body's arithmetic read at one entry, over the extended reals.

  • the row of Σ x²: entry `j` grows by the sum over the tile's samples of `x_j²`;
  • the column of Σ y²: entry `i` grows by the sum over the tile's samples of `y_i²`;
  • the square of Σ y·x: entry `(i, j)` grows by the sum over the tile's samples of `y_i · x_j`
    (a matrix product contracting the sample axis of both factors, from a zero accumulator; narrowing a factor's
    format changes nothing over the extended reals);
  • the output block: entry `(i, j)` is `(Σy²_i + Σx²_j − 2 · Σyx_ij) / N`.
-/
import proofs.«114583_j58583353917585_1_alg».proof.Proof.Gen.KernelIdeal.Skeleton
import proofs.«114583_j58583353917585_1_alg».proof.Proof.Spec
import proofs.«114583_j58583353917585_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Idealize.ShloMosaic Idealize.ShloMosaic.ValueIdx
open Cert.KernelIdeal Cert.KernelIdeal.Gen

/-! ## The tile blocks without their leading unit axis -/

/-- The `x` block viewed as channels × samples reads, at `(c, l)`, the block at `(0, c, l)`. -/
private theorem pay5_apply (x : Vec Ideal S1x4x65536 .f32) (c : Fin 4) (l : Fin 65536) :
    k0_pay5 (F := Ideal) x (ix2 c l) = x (ix3 (0 : Fin 1) c l) := by
  unfold k0_pay5
  exact shapeCast_1ab_ab_apply x _ c l

/-- The `y` block viewed as channels × samples reads, at `(c, l)`, the block at `(0, c, l)`. -/
private theorem pay6_apply (y : Vec Ideal S1x4x65536 .f32) (c : Fin 4) (l : Fin 65536) :
    k0_pay6 (F := Ideal) y (ix2 c l) = y (ix3 (0 : Fin 1) c l) := by
  unfold k0_pay6
  exact shapeCast_1ab_ab_apply y _ c l

/-! ## The reset values -/

/-- The reset values are zero. -/
theorem reset_sx_apply (j : Fin 4) : k0_pay2 (F := Ideal) (ix2 (0 : Fin 1) j) = 0 := by
  unfold k0_pay2
  exact (congrFun (shapeCast_self _ _) _).trans Ideal.ofBits_zero_f32
theorem reset_sy_apply (i : Fin 4) : k0_pay3 (F := Ideal) (ix2 i (0 : Fin 1)) = 0 := by
  unfold k0_pay3
  exact (congrFun (shapeCast_self _ _) _).trans Ideal.ofBits_zero_f32
theorem reset_cross_apply (i j : Fin 4) : k0_pay4 (F := Ideal) (ix2 i j) = 0 := by
  unfold k0_pay4
  exact (congrFun (shapeCast_self _ _) _).trans Ideal.ofBits_zero_f32

/-! ## A column of sums of squares -/

/-- The sum along the samples of the squares of a channels × samples array, kept as a column: entry `(c, u)` is the sum
    over the samples `l` of the square of the array's entry `(c, l)`. -/
private theorem sqCol_apply (v : FVec Ideal S4x65536 .f32) (h : S4x65536.Reduces [1] S4) (hφ : FKind.Formats FTy.f32)
    (hacc : (0x00000000#32 : BitVec 32) = 0x00000000#32) (hc : S4.ShapeCasts S4x1) (c : Fin 4) (u : Fin 1) :
    shapeCast S4x1 (multiReduction (F := Ideal) .add [1] S4 (mulf v v) 0x00000000#32 h hφ hacc) hc (ix2 c u)
      = ∑ l : Fin 65536, v (ix2 c l) * v (ix2 c l) :=
  (Cert.Keepdims.shapeCast_a_a1_apply _ hc c u).trans (Cert.Keepdims.rowSum_apply (mulf v v) h hφ hacc c)

/-- Σ x²: the row's entry `j` after a tile. -/
theorem upd_sx_apply (x : Vec Ideal S1x4x65536 .f32) (p : Vec Ideal S1x4 .f32) (j : Fin 4) :
    k0_pay7 (F := Ideal) x p (ix2 (0 : Fin 1) j)
      = p (ix2 (0 : Fin 1) j) + ∑ l : Fin 65536, x (ix3 (0 : Fin 1) j l) * x (ix3 (0 : Fin 1) j l) := by
  unfold k0_pay7
  refine (congrFun (shapeCast_self _ _) _).trans ?_
  refine congrArg (p (ix2 (0 : Fin 1) j) + ·) ?_
  refine (transpose_ix2_apply _ _ (0 : Fin 1) j).trans ?_
  refine (sqCol_apply _ _ _ _ _ j (0 : Fin 1)).trans ?_
  exact Finset.sum_congr rfl fun l _ => by rw [pay5_apply]

/-- Σ y²: the column's entry `i` after a tile. -/
theorem upd_sy_apply (y : Vec Ideal S1x4x65536 .f32) (p : Vec Ideal S4x1 .f32) (i : Fin 4) :
    k0_pay8 (F := Ideal) y p (ix2 i (0 : Fin 1))
      = p (ix2 i (0 : Fin 1)) + ∑ l : Fin 65536, y (ix3 (0 : Fin 1) i l) * y (ix3 (0 : Fin 1) i l) := by
  unfold k0_pay8
  refine (congrFun (shapeCast_self _ _) _).trans ?_
  refine congrArg (p (ix2 i (0 : Fin 1)) + ·) ?_
  refine (sqCol_apply _ _ _ _ _ i (0 : Fin 1)).trans ?_
  exact Finset.sum_congr rfl fun l _ => by rw [pay6_apply]

/-! ## The product of the two blocks along the samples -/

/-- The left factor's index at result entry `o` and contraction position `q`: its channel coordinate is `o`'s first. -/
private theorem lhs_axis0 (o : S4x4.Idx) (q : dot_S4x65536_S4x65536_S4x4_1_1_0_0_n_n.contr.Idx) :
    (dot_S4x65536_S4x65536_S4x4_1_1_0_0_n_n.lhsIdx o q 0).val = (o 0).val := by
  unfold DotDims.lhsIdx
  rw [dif_neg (show ¬(0 : Fin S4x65536.rank) ∈ dot_S4x65536_S4x65536_S4x4_1_1_0_0_n_n.lhsBatch by decide),
    dif_pos (show (0 : Fin S4x65536.rank) ∈ dot_S4x65536_S4x65536_S4x4_1_1_0_0_n_n.lhsNonContracting by decide)]
  rfl

/-- Its sample coordinate is the contraction position's one coordinate. -/
private theorem lhs_axis1 (o : S4x4.Idx) (q : dot_S4x65536_S4x65536_S4x4_1_1_0_0_n_n.contr.Idx) :
    (dot_S4x65536_S4x65536_S4x4_1_1_0_0_n_n.lhsIdx o q 1).val = (q ⟨0, by decide⟩).val :=
  dot_S4x65536_S4x65536_S4x4_1_1_0_0_n_n.lhsIdx_val_of_single rfl o q

/-- The right factor's index at result entry `o` and contraction position `q`: its channel coordinate is `o`'s second. -/
private theorem rhs_axis0 (o : S4x4.Idx) (q : dot_S4x65536_S4x65536_S4x4_1_1_0_0_n_n.contr.Idx) :
    (dot_S4x65536_S4x65536_S4x4_1_1_0_0_n_n.rhsIdx o q 0).val = (o 1).val := by
  unfold DotDims.rhsIdx
  rw [dif_neg (show ¬(0 : Fin S4x65536.rank) ∈ dot_S4x65536_S4x65536_S4x4_1_1_0_0_n_n.rhsBatch by decide),
    dif_pos (show (0 : Fin S4x65536.rank) ∈ dot_S4x65536_S4x65536_S4x4_1_1_0_0_n_n.rhsNonContracting by decide)]
  rfl

/-- Its sample coordinate is the contraction position's one coordinate. -/
private theorem rhs_axis1 (o : S4x4.Idx) (q : dot_S4x65536_S4x65536_S4x4_1_1_0_0_n_n.contr.Idx) :
    (dot_S4x65536_S4x65536_S4x4_1_1_0_0_n_n.rhsIdx o q 1).val = (q ⟨0, by decide⟩).val :=
  dot_S4x65536_S4x65536_S4x4_1_1_0_0_n_n.rhsIdx_val_of_single rfl o q

/-- A product of two channels × samples arrays contracting the samples of both, from the zero accumulator: entry `(i, j)`
    is the sum over the samples `l` of the left array at `(i, l)` times the right array at `(j, l)`. -/
private theorem prod_apply {φ₁ φ₂ : FTy} (a : FVec Ideal S4x65536 φ₁) (b : FVec Ideal S4x65536 φ₂) (i j : Fin 4) :
    matmul dot_S4x65536_S4x65536_S4x4_1_1_0_0_n_n none a b (constant (F := Ideal) S4x4 .f32 0x00000000#32) (ix2 i j)
      = ∑ l : Fin 65536, a (ix2 i l) * b (ix2 j l) := by
  refine (Ideal.matmul_constant_zero_apply dot_S4x65536_S4x65536_S4x4_1_1_0_0_n_n none a b (ix2 i j)).trans ?_
  rw [← Equiv.sum_comp (contrEquiv1 dot_S4x65536_S4x65536_S4x4_1_1_0_0_n_n 65536 rfl rfl).symm]
  refine Finset.sum_congr rfl fun l _ => ?_
  have hl := contrEquiv1_symm_val dot_S4x65536_S4x65536_S4x4_1_1_0_0_n_n 65536 rfl rfl l
  have el : dot_S4x65536_S4x65536_S4x4_1_1_0_0_n_n.lhsIdx (ix2 i j)
      ((contrEquiv1 dot_S4x65536_S4x65536_S4x4_1_1_0_0_n_n 65536 rfl rfl).symm l) = ix2 i l := funext fun ax => Fin.ext (by
    match ax with
    | ⟨0, _⟩ => exact lhs_axis0 _ _
    | ⟨1, _⟩ => exact (lhs_axis1 _ _).trans hl)
  have er : dot_S4x65536_S4x65536_S4x4_1_1_0_0_n_n.rhsIdx (ix2 i j)
      ((contrEquiv1 dot_S4x65536_S4x65536_S4x4_1_1_0_0_n_n 65536 rfl rfl).symm l) = ix2 j l := funext fun ax => Fin.ext (by
    match ax with
    | ⟨0, _⟩ => exact rhs_axis0 _ _
    | ⟨1, _⟩ => exact (rhs_axis1 _ _).trans hl)
  rw [el, er]

/-- Σ y·x: the square's entry `(i, j)` after a tile. -/
theorem upd_cross_apply (x y : Vec Ideal S1x4x65536 .f32) (p : Vec Ideal S4x4 .f32) (i j : Fin 4) :
    k0_pay9 (F := Ideal) x y p (ix2 i j)
      = p (ix2 i j) + ∑ l : Fin 65536, y (ix3 (0 : Fin 1) i l) * x (ix3 (0 : Fin 1) j l) := by
  unfold k0_pay9
  refine (congrFun (shapeCast_self _ _) _).trans ?_
  refine congrArg (p (ix2 i j) + ·) ?_
  refine (prod_apply _ _ i j).trans ?_
  refine Finset.sum_congr rfl fun l _ => ?_
  show k0_pay6 (F := Ideal) y (ix2 i l) * k0_pay5 (F := Ideal) x (ix2 j l) = _
  rw [pay6_apply, pay5_apply]

/-! ## The output block -/

/-- The output block's entry `(i, j)` from the three sums. -/
theorem out_apply (sy : Vec Ideal S4x1 .f32) (sx : Vec Ideal S1x4 .f32) (cr : Vec Ideal S4x4 .f32) (i j : Fin 4) :
    k0_pay1 (F := Ideal) sy sx cr (ix3 (0 : Fin 1) i j)
      = Ideal.div ((sy (ix2 i (0 : Fin 1)) + sx (ix2 (0 : Fin 1) j)) - Cert.PairDist.two * cr (ix2 i j)) Cert.PairDist.len := by
  unfold k0_pay1
  refine (shapeCast_ab_1ab_apply _ _ (0 : Fin 1) i j).trans ?_
  unfold Cert.PairDist.two Cert.PairDist.len
  refine congrArg (fun t => Ideal.div (t - Ideal.ofBits .f32 0x40000000#32 * cr (ix2 i j)) (Ideal.ofBits .f32 0x48800000#32)) ?_
  exact congrArg₂ (· + ·) (Cert.Keepdims.broadcastTo_a1_ab_apply sy _ i j) (broadcastTo_1b_ab_apply sx _ i j)

end Cert.KernelIdeal.Hand

end
-- ==== Proof.Acc.lean ====
/-
  The running sums across a batch's four tiles, and the block the last tile writes.

  Grid point `t` works on batch `t / 4`, tile `t % 4`. After it the three scratch buffers hold the sums over tiles
  `0 … t % 4` of that batch; at `t % 4 = 3` the output's staging buffer holds the expanded form of the mean squared
  distance for that batch.
-/
import proofs.«114583_j58583353917585_1_alg».proof.Proof.Pieces
import proofs.«114583_j58583353917585_1_alg».proof.Proof.PayAt
import proofs.«114583_j58583353917585_1_alg».proof.Proof.Spec

set_option maxRecDepth 16384

noncomputable section

open scoped BigOperators

namespace Cert.KernelIdeal.Hand

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The batch a grid point works on. -/
def batchOf (t : Fin cfg0.N) : Fin 8 := ⟨t.val / 4, by have := t.isLt; have hN : cfg0.N = 32 := N_0; omega⟩

/-- Position `65536·k + l` of the sample axis, for a tile number given as a natural number. -/
def sampleAt (k : ℕ) (l : Fin 65536) : Fin 262144 := ⟨(65536 * k + l.val) % 262144, Nat.mod_lt _ (by norm_num)⟩

/-- For a tile number below 4 it is the specification's sample position. -/
theorem sample_eq (k : Fin 4) (l : Fin 65536) : Cert.PairDist.sample k l = sampleAt k.val l := by
  apply Fin.ext
  show 65536 * k.val + l.val = (65536 * k.val + l.val) % 262144
  have := k.isLt; have := l.isLt; omega

/-- The batch of point number `n`. -/
def batchN (n : ℕ) : Fin 8 := ⟨(n / 4) % 8, Nat.mod_lt _ (by norm_num)⟩

/-- On the grid's 32 points it is the batch the point works on. -/
theorem batchOf_eq (t : Fin cfg0.N) : batchOf t = batchN t.val := by
  apply Fin.ext
  show t.val / 4 = (t.val / 4) % 8
  have := t.isLt; have hN : cfg0.N = 32 := N_0; omega

/-- The two input blocks at a point and the two argument arrays, at their literal types. -/
abbrev xblk (c : Dev nD) (t : Fin cfg0.N) : Vec Ideal S1x4x65536 .f32 := iblk m c 0 t
abbrev yblk (c : Dev nD) (t : Fin cfg0.N) : Vec Ideal S1x4x65536 .f32 := iblk m c 1 t
abbrev xarr (c : Dev nD) : Cert.PairDist.SArg.Idx → EReal := m ((c.tc : Thread nD τ).loc main_arg0)
abbrev yarr (c : Dev nD) : Cert.PairDist.SArg.Idx → EReal := m ((c.tc : Thread nD τ).loc main_arg1)

/-- The block of `x` staged at point `t` is batch `t / 4`, all channels, samples `65536·(t % 4) …` of the argument:
    the window's block index at `t` is `(t / 4, 0, t % 4)` and its block extents are `(1, 4, 65536)`. -/
theorem xblk_apply (c : Dev nD) (t : Fin cfg0.N) (ch : Fin 4) (l : Fin 65536) :
    xblk m c t (ix3 (0 : Fin 1) ch l) = xarr m c (ix3 (batchN t.val) ch (sampleAt (t.val % 4) l)) := by
  have hi := (by decide +kernel : ∀ t : Fin grid0.N, win0_0.index t (0 : Fin 3) = t.val / 4 ∧ win0_0.index t (1 : Fin 3) = 0 ∧ win0_0.index t (2 : Fin 3) = t.val % 4) t
  show iblk m c 0 t (ix3 (0 : Fin 1) ch l) = _
  unfold iblk
  rw [View.read_apply]
  show V m c main_arg0 _ = m ((c.tc : Thread nD τ).loc main_arg0) _
  rw [V_main_arg0]
  congr 1
  funext a
  apply Fin.ext
  match a with
  | ⟨0, _⟩ =>
    show win0_0.index t 0 * 1 + 1 * 0 = (t.val / 4) % 8
    rw [hi.1]; have := t.isLt; have hN : cfg0.N = 32 := N_0; omega
  | ⟨1, _⟩ =>
    show win0_0.index t 1 * 4 + 1 * ch.val = ch.val
    rw [hi.2.1]; omega
  | ⟨2, _⟩ =>
    show win0_0.index t 2 * 65536 + 1 * l.val = (65536 * (t.val % 4) + l.val) % 262144
    rw [hi.2.2]; have := l.isLt; omega

/-- The same for the block of `y`. -/
theorem yblk_apply (c : Dev nD) (t : Fin cfg0.N) (ch : Fin 4) (l : Fin 65536) :
    yblk m c t (ix3 (0 : Fin 1) ch l) = yarr m c (ix3 (batchN t.val) ch (sampleAt (t.val % 4) l)) := by
  have hi := (by decide +kernel : ∀ t : Fin grid0.N, win0_1.index t (0 : Fin 3) = t.val / 4 ∧ win0_1.index t (1 : Fin 3) = 0 ∧ win0_1.index t (2 : Fin 3) = t.val % 4) t
  show iblk m c 1 t (ix3 (0 : Fin 1) ch l) = _
  unfold iblk
  rw [View.read_apply]
  show V m c main_arg1 _ = m ((c.tc : Thread nD τ).loc main_arg1) _
  rw [V_main_arg1]
  congr 1
  funext a
  apply Fin.ext
  match a with
  | ⟨0, _⟩ =>
    show win0_1.index t 0 * 1 + 1 * 0 = (t.val / 4) % 8
    rw [hi.1]; have := t.isLt; have hN : cfg0.N = 32 := N_0; omega
  | ⟨1, _⟩ =>
    show win0_1.index t 1 * 4 + 1 * ch.val = ch.val
    rw [hi.2.1]; omega
  | ⟨2, _⟩ =>
    show win0_1.index t 2 * 65536 + 1 * l.val = (65536 * (t.val % 4) + l.val) % 262144
    rw [hi.2.2]; have := l.isLt; omega

/-- What a batch's first tile leaves in the three scratch buffers: the reset values updated by the tile. -/
theorem scr_first (c : Dev nD) (t : Fin cfg0.N) (h0 : t.val % 4 = 0) (h1 : ¬t.val % 4 = 3) :
    (outsAt0 m c t.val t.isLt).2.1 = k0_pay7 (xblk m c t) (k0_pay2 (F := Ideal))
    ∧ (outsAt0 m c t.val t.isLt).2.2.1 = k0_pay8 (yblk m c t) (k0_pay3 (F := Ideal))
    ∧ (outsAt0 m c t.val t.isLt).2.2.2 = k0_pay9 (xblk m c t) (yblk m c t) (k0_pay4 (F := Ideal)) := by
  rw [outsAt0_A m c t h0 h1]
  dsimp only
  exact ⟨first_sx (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t),
    first_sy (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t),
    first_cross (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)⟩

/-- What a middle tile leaves: what the tile before left, updated by the tile. -/
theorem scr_mid (c : Dev nD) (t : Fin cfg0.N) (h0 : ¬t.val % 4 = 0) (h1 : ¬t.val % 4 = 3) :
    (outsAt0 m c t.val t.isLt).2.1 = k0_pay7 (xblk m c t) (outsAt0 m c (t.val - 1) (Nat.lt_of_le_of_lt (Nat.sub_le _ _) t.isLt)).2.1
    ∧ (outsAt0 m c t.val t.isLt).2.2.1 = k0_pay8 (yblk m c t) (outsAt0 m c (t.val - 1) (Nat.lt_of_le_of_lt (Nat.sub_le _ _) t.isLt)).2.2.1
    ∧ (outsAt0 m c t.val t.isLt).2.2.2 = k0_pay9 (xblk m c t) (yblk m c t) (outsAt0 m c (t.val - 1) (Nat.lt_of_le_of_lt (Nat.sub_le _ _) t.isLt)).2.2.2 := by
  rw [outsAt0_B m c t h0 h1]
  dsimp only
  exact ⟨mid_sx (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    mid_sy (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    mid_cross (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2⟩

/-- What a batch's last tile leaves in the scratch buffers: the same update. -/
theorem scr_last (c : Dev nD) (t : Fin cfg0.N) (h0 : ¬t.val % 4 = 0) (h1 : t.val % 4 = 3) :
    (outsAt0 m c t.val t.isLt).2.1 = k0_pay7 (xblk m c t) (outsAt0 m c (t.val - 1) (Nat.lt_of_le_of_lt (Nat.sub_le _ _) t.isLt)).2.1
    ∧ (outsAt0 m c t.val t.isLt).2.2.1 = k0_pay8 (yblk m c t) (outsAt0 m c (t.val - 1) (Nat.lt_of_le_of_lt (Nat.sub_le _ _) t.isLt)).2.2.1
    ∧ (outsAt0 m c t.val t.isLt).2.2.2 = k0_pay9 (xblk m c t) (yblk m c t) (outsAt0 m c (t.val - 1) (Nat.lt_of_le_of_lt (Nat.sub_le _ _) t.isLt)).2.2.2 := by
  rw [outsAt0_C m c t h0 h1]
  dsimp only
  exact ⟨last_sx (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    last_sy (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    last_cross (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2⟩

/-- And in the output's staging buffer: the output block formed from the three updated sums. -/
theorem out_of_last (c : Dev nD) (t : Fin cfg0.N) (h0 : ¬t.val % 4 = 0) (h1 : t.val % 4 = 3) :
    (outsAt0 m c t.val t.isLt).1
      = k0_pay1 (k0_pay8 (yblk m c t) (outsAt0 m c (t.val - 1) (Nat.lt_of_le_of_lt (Nat.sub_le _ _) t.isLt)).2.2.1) (k0_pay7 (xblk m c t) (outsAt0 m c (t.val - 1) (Nat.lt_of_le_of_lt (Nat.sub_le _ _) t.isLt)).2.1)
          (k0_pay9 (xblk m c t) (yblk m c t) (outsAt0 m c (t.val - 1) (Nat.lt_of_le_of_lt (Nat.sub_le _ _) t.isLt)).2.2.2) := by
  rw [outsAt0_C m c t h0 h1]
  dsimp only
  exact last_out (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

/-- One tile's share of the sum of squares of channel `ch` of batch `b`. -/
def tileSq (X : Cert.PairDist.SArg.Idx → EReal) (b : Fin 8) (ch : Fin 4) (k : ℕ) : EReal :=
  ∑ l : Fin 65536, X (ix3 b ch (sampleAt k l)) * X (ix3 b ch (sampleAt k l))

/-- One tile's share of the sum of products of `y`'s channel `i` with `x`'s channel `j`. -/
def tileCr (X Y : Cert.PairDist.SArg.Idx → EReal) (b : Fin 8) (i j : Fin 4) (k : ℕ) : EReal :=
  ∑ l : Fin 65536, Y (ix3 b i (sampleAt k l)) * X (ix3 b j (sampleAt k l))

/-- The row's entry grows by the point's tile share of Σ x². -/
theorem sx_step (c : Dev nD) (t : Fin cfg0.N) (p : Vec Ideal S1x4 .f32) (j : Fin 4) :
    k0_pay7 (F := Ideal) (xblk m c t) p (ix2 (0 : Fin 1) j)
      = p (ix2 (0 : Fin 1) j) + tileSq (xarr m c) (batchN t.val) j (t.val % 4) := by
  refine (upd_sx_apply (xblk m c t) p j).trans ?_
  unfold tileSq
  exact congrArg (p (ix2 (0 : Fin 1) j) + ·) (Finset.sum_congr rfl (fun l _ => by rw [xblk_apply]))

/-- The column's entry grows by the point's tile share of Σ y². -/
theorem sy_step (c : Dev nD) (t : Fin cfg0.N) (p : Vec Ideal S4x1 .f32) (i : Fin 4) :
    k0_pay8 (F := Ideal) (yblk m c t) p (ix2 i (0 : Fin 1))
      = p (ix2 i (0 : Fin 1)) + tileSq (yarr m c) (batchN t.val) i (t.val % 4) := by
  refine (upd_sy_apply (yblk m c t) p i).trans ?_
  unfold tileSq
  exact congrArg (p (ix2 i (0 : Fin 1)) + ·) (Finset.sum_congr rfl (fun l _ => by rw [yblk_apply]))

/-- The square's entry grows by the point's tile share of Σ y·x. -/
theorem cr_step (c : Dev nD) (t : Fin cfg0.N) (p : Vec Ideal S4x4 .f32) (i j : Fin 4) :
    k0_pay9 (F := Ideal) (xblk m c t) (yblk m c t) p (ix2 i j)
      = p (ix2 i j) + tileCr (xarr m c) (yarr m c) (batchN t.val) i j (t.val % 4) := by
  refine (upd_cross_apply (xblk m c t) (yblk m c t) p i j).trans ?_
  unfold tileCr
  exact congrArg (p (ix2 i j) + ·) (Finset.sum_congr rfl (fun l _ => by rw [xblk_apply, yblk_apply]))

/-- After point `n` the three scratch buffers hold the sums of the tile shares over tiles `0 … n % 4` of batch
    `n / 4`: by induction on the point, a first tile starting from the zero reset, a later tile adding its share to
    what the tile before left (same batch, one tile fewer). -/
theorem scr_inv (c : Dev nD) : ∀ (n : ℕ) (h : n < cfg0.N) (i j : Fin 4),
    (outsAt0 m c n h).2.1 (ix2 (0 : Fin 1) j) = ∑ k ∈ Finset.range (n % 4 + 1), tileSq (xarr m c) (batchN n) j k
    ∧ (outsAt0 m c n h).2.2.1 (ix2 i (0 : Fin 1)) = ∑ k ∈ Finset.range (n % 4 + 1), tileSq (yarr m c) (batchN n) i k
    ∧ (outsAt0 m c n h).2.2.2 (ix2 i j)
        = ∑ k ∈ Finset.range (n % 4 + 1), tileCr (xarr m c) (yarr m c) (batchN n) i j k := by
  intro n
  induction n using Nat.strong_induction_on with
  | _ n ih =>
    intro h i j
    have hN : cfg0.N = 32 := N_0
    by_cases h0 : n % 4 = 0
    · have h1 : ¬n % 4 = 3 := by omega
      obtain ⟨e1, e2, e3⟩ := scr_first m c ⟨n, h⟩ h0 h1
      rw [h0, Finset.sum_range_one, Finset.sum_range_one, Finset.sum_range_one]
      refine ⟨?_, ?_, ?_⟩
      · refine (congrFun e1 (ix2 (0 : Fin 1) j)).trans ((sx_step m c ⟨n, h⟩ _ j).trans ?_)
        rw [reset_sx_apply, zero_add]
        show tileSq _ _ _ (n % 4) = _
        rw [h0]
      · refine (congrFun e2 (ix2 i (0 : Fin 1))).trans ((sy_step m c ⟨n, h⟩ _ i).trans ?_)
        rw [reset_sy_apply, zero_add]
        show tileSq _ _ _ (n % 4) = _
        rw [h0]
      · refine (congrFun e3 (ix2 i j)).trans ((cr_step m c ⟨n, h⟩ _ i j).trans ?_)
        rw [reset_cross_apply, zero_add]
        show tileCr _ _ _ _ _ (n % 4) = _
        rw [h0]
    · have hprev := ih (n - 1) (by omega) (by omega) i j
      have hk : (n - 1) % 4 + 1 = n % 4 := by omega
      have hb : batchN (n - 1) = batchN n := by
        apply Fin.ext
        show ((n - 1) / 4) % 8 = (n / 4) % 8
        omega
      rw [hk, hb] at hprev
      have hstep : (outsAt0 m c n h).2.1 = k0_pay7 (xblk m c ⟨n, h⟩) (outsAt0 m c (n - 1) (by omega)).2.1
          ∧ (outsAt0 m c n h).2.2.1 = k0_pay8 (yblk m c ⟨n, h⟩) (outsAt0 m c (n - 1) (by omega)).2.2.1
          ∧ (outsAt0 m c n h).2.2.2 = k0_pay9 (xblk m c ⟨n, h⟩) (yblk m c ⟨n, h⟩) (outsAt0 m c (n - 1) (by omega)).2.2.2 := by
        by_cases h1 : n % 4 = 3
        · exact scr_last m c ⟨n, h⟩ h0 h1
        · exact scr_mid m c ⟨n, h⟩ h0 h1
      obtain ⟨e1, e2, e3⟩ := hstep
      rw [Finset.sum_range_succ, Finset.sum_range_succ, Finset.sum_range_succ]
      refine ⟨?_, ?_, ?_⟩
      · refine (congrFun e1 (ix2 (0 : Fin 1) j)).trans ((sx_step m c ⟨n, h⟩ _ j).trans ?_)
        exact congrArg (· + tileSq (xarr m c) (batchN n) j (n % 4)) hprev.1
      · refine (congrFun e2 (ix2 i (0 : Fin 1))).trans ((sy_step m c ⟨n, h⟩ _ i).trans ?_)
        exact congrArg (· + tileSq (yarr m c) (batchN n) i (n % 4)) hprev.2.1
      · refine (congrFun e3 (ix2 i j)).trans ((cr_step m c ⟨n, h⟩ _ i j).trans ?_)
        exact congrArg (· + tileCr (xarr m c) (yarr m c) (batchN n) i j (n % 4)) hprev.2.2

/-- The four tile shares of Σ of squares add up to the whole sum over the sample axis. -/
theorem tiles_sq (X : Cert.PairDist.SArg.Idx → EReal) (b : Fin 8) (ch : Fin 4) :
    ∑ k ∈ Finset.range (3 + 1), tileSq X b ch k = Cert.PairDist.sqSum X b ch := by
  unfold Cert.PairDist.sqSum tileSq
  rw [Finset.sum_range]
  exact Finset.sum_congr rfl (fun k _ => Finset.sum_congr rfl (fun l _ => by rw [sample_eq]))

/-- The four tile shares of Σ of products add up to the whole sum over the sample axis. -/
theorem tiles_cr (X Y : Cert.PairDist.SArg.Idx → EReal) (b : Fin 8) (i j : Fin 4) :
    ∑ k ∈ Finset.range (3 + 1), tileCr X Y b i j k = Cert.PairDist.crossSum X Y b i j := by
  unfold Cert.PairDist.crossSum tileCr
  rw [Finset.sum_range]
  exact Finset.sum_congr rfl (fun k _ => Finset.sum_congr rfl (fun l _ => by rw [sample_eq]))

/-- At a batch's last tile the output's staging buffer holds, at `(0, i, j)`, the expanded form at `(batch, i, j)`
    of the two argument arrays. -/
theorem out_last (c : Dev nD) (t : Fin cfg0.N) (h3 : t.val % 4 = 3) (i j : Fin 4) :
    (outsAt0 m c t.val t.isLt).1 (ix3 (0 : Fin 1) i j)
      = Cert.PairDist.expanded (m ((c.tc : Thread nD τ).loc main_arg0)) (m ((c.tc : Thread nD τ).loc main_arg1)) (ix3 (batchOf t) i j) := by
  have h0 : ¬t.val % 4 = 0 := by omega
  obtain ⟨e1, e2, e3⟩ := scr_last m c t h0 h3
  obtain ⟨s1, s2, s3⟩ := scr_inv m c t.val t.isLt i j
  rw [h3, ← batchOf_eq] at s1 s2 s3
  have a1 := (congrFun e1 (ix2 (0 : Fin 1) j)).symm.trans (s1.trans (tiles_sq (xarr m c) (batchOf t) j))
  have a2 := (congrFun e2 (ix2 i (0 : Fin 1))).symm.trans (s2.trans (tiles_sq (yarr m c) (batchOf t) i))
  have a3 := (congrFun e3 (ix2 i j)).symm.trans (s3.trans (tiles_cr (xarr m c) (yarr m c) (batchOf t) i j))
  refine (congrFun (out_of_last m c t h0 h3) (ix3 (0 : Fin 1) i j)).trans ?_
  refine (out_apply _ _ _ i j).trans ?_
  rw [a1, a2, a3]
  rfl

end Cert.KernelIdeal.Hand

end
-- ==== Proof.KernTerms.lean ====
/-
  The kernel program's closing stretch as one term of the distance table its region leaves.
-/
import proofs.«114583_j58583353917585_1_alg».proof.Proof.Gen.KernelIdeal
import Idealize.ShloMosaic.PureOps.Ideal

noncomputable section

namespace Cert.KernelIdeal.Hand

open Idealize.ShloMosaic Cert.KernelIdeal
open Cert.KernelIdeal.Facts₀ Cert.KernelIdeal.Facts

variable {F : FTy → Type} [FloatOps F]

/-- The row numbers 0..3 laid along a `1 × 4` row. -/
def rowIdx : (⟨S1x4, .i32⟩ : BufTy).Contents (Elt F) :=
  (broadcastInDim S1x4 ![1] bcast_S4_S1x4_1 : (⟨S4, .i32⟩ : BufTy).Contents (Elt F) → (⟨S1x4, .i32⟩ : BufTy).Contents (Elt F)) (iotaInDim S4 32 0)

/-- The same with a negative entry moved up by 4 (the wrap-around of a Python index). -/
def rowIdxWrapped : (⟨S1x4, .i32⟩ : BufTy).Contents (Elt F) :=
  (select : (⟨S1x4, .i1⟩ : BufTy).Contents (Elt F) → (⟨S1x4, .i32⟩ : BufTy).Contents (Elt F) → (⟨S1x4, .i32⟩ : BufTy).Contents (Elt F) → (⟨S1x4, .i32⟩ : BufTy).Contents (Elt F))
    ((cmpi .slt : (⟨S1x4, .i32⟩ : BufTy).Contents (Elt F) → (⟨S1x4, .i32⟩ : BufTy).Contents (Elt F) → (⟨S1x4, .i1⟩ : BufTy).Contents (Elt F)) (rowIdx (F := F))
      ((broadcastInDim S1x4 ![] bcast_S_S1x4 : (⟨S_, .i32⟩ : BufTy).Contents (Elt F) → (⟨S1x4, .i32⟩ : BufTy).Contents (Elt F)) (constantI S_ 32 0#32)))
    ((addi : (⟨S1x4, .i32⟩ : BufTy).Contents (Elt F) → (⟨S1x4, .i32⟩ : BufTy).Contents (Elt F) → (⟨S1x4, .i32⟩ : BufTy).Contents (Elt F)) (rowIdx (F := F))
      ((broadcastInDim S1x4 ![] bcast_S_S1x4 : (⟨S_, .i32⟩ : BufTy).Contents (Elt F) → (⟨S1x4, .i32⟩ : BufTy).Contents (Elt F)) (constantI S_ 32 4#32)))
    (rowIdx (F := F))

/-- The 24 orderings of four channels, one per row. -/
def perms : (⟨S24x4, .i32⟩ : BufTy).Contents (Elt F) := fun i => lit0 (S24x4.rowMajor i)

/-- The same with a negative entry moved up by 4. -/
def permsWrapped : (⟨S24x4, .i32⟩ : BufTy).Contents (Elt F) :=
  (select : (⟨S24x4, .i1⟩ : BufTy).Contents (Elt F) → (⟨S24x4, .i32⟩ : BufTy).Contents (Elt F) → (⟨S24x4, .i32⟩ : BufTy).Contents (Elt F) → (⟨S24x4, .i32⟩ : BufTy).Contents (Elt F))
    ((cmpi .slt : (⟨S24x4, .i32⟩ : BufTy).Contents (Elt F) → (⟨S24x4, .i32⟩ : BufTy).Contents (Elt F) → (⟨S24x4, .i1⟩ : BufTy).Contents (Elt F)) (perms (F := F))
      ((broadcastInDim S24x4 ![] bcast_S_S24x4 : (⟨S_, .i32⟩ : BufTy).Contents (Elt F) → (⟨S24x4, .i32⟩ : BufTy).Contents (Elt F)) (constantI S_ 32 0#32)))
    ((addi : (⟨S24x4, .i32⟩ : BufTy).Contents (Elt F) → (⟨S24x4, .i32⟩ : BufTy).Contents (Elt F) → (⟨S24x4, .i32⟩ : BufTy).Contents (Elt F)) (perms (F := F))
      ((broadcastInDim S24x4 ![] bcast_S_S24x4 : (⟨S_, .i32⟩ : BufTy).Contents (Elt F) → (⟨S24x4, .i32⟩ : BufTy).Contents (Elt F)) (constantI S_ 32 4#32)))
    (perms (F := F))

/-- For ordering `p` and position `r`: the pair (row `r`, column `p r`) at which the distance table is read. -/
def startIdx : (⟨S24x4x2, .i32⟩ : BufTy).Contents (Elt F) :=
  concatenate S24x4x2 2
    [⟨S24x4x1, (broadcastInDim S24x4x1 ![0, 1] bcast_S24x4_S24x4x1_0_1 : (⟨S24x4, .i32⟩ : BufTy).Contents (Elt F) → (⟨S24x4x1, .i32⟩ : BufTy).Contents (Elt F))
        ((broadcastInDim S24x4 ![0, 1] bcast_S1x4_S24x4_0_1 : (⟨S1x4, .i32⟩ : BufTy).Contents (Elt F) → (⟨S24x4, .i32⟩ : BufTy).Contents (Elt F)) (rowIdxWrapped (F := F)))⟩,
     ⟨S24x4x1, (broadcastInDim S24x4x1 ![0, 1] bcast_S24x4_S24x4x1_0_1 : (⟨S24x4, .i32⟩ : BufTy).Contents (Elt F) → (⟨S24x4x1, .i32⟩ : BufTy).Contents (Elt F)) (permsWrapped (F := F))⟩]
    concatenates_S24x4x1_S24x4x1_S24x4x2_d2

/-- What both programs do with a distance table `d`: for every batch and every ordering of the channels add the four
    distances the ordering pairs up, take the least such total per batch, and add the eight minima. -/
def tailTerm (d : (⟨S8x4x4, .f32⟩ : BufTy).Contents (Elt F)) : (⟨S_, .f32⟩ : BufTy).Contents (Elt F) :=
  Host.reduceAdd
    (Host.reduce FloatOps.minimumf
      (Host.reduceAdd (Host.gather gather_S8x4x4_S24x4x2_S8x24x4_0_12_n_n_12_2_811 d (startIdx (F := F)))
        (constant S_ .f32 0x00000000#32) reducesTo_S8x24x4_S8x24_d2 h_S_)
      (constant S_ .f32 0x7F800000#32) reducesTo_S8x24_S8_d1 h_S_)
    (constant S_ .f32 0x00000000#32) reducesTo_S8_S_d0 h_S_

end Cert.KernelIdeal.Hand

end
-- ==== Proof.KernelRun.lean ====
/-
  The kernel program run: its region leaves the expanded distance table in the result array (each batch's block written
  once, at the batch's last tile, and the eight blocks cover the table), and the operations after the region apply the
  closing stretch to it.
-/
import proofs.«114583_j58583353917585_1_alg».proof.Proof.Acc
import proofs.«114583_j58583353917585_1_alg».proof.Proof.KernTerms
import Idealize.ShloMosaic.Lib.Pipeline.Value
import Idealize.ShloMosaic.Lib.StableHlo.Run
import Idealize.ShloMosaic.Lib.Tactic

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-! ## From the eight blocks to the table -/

/-- The expanded distance table of the two argument arrays as launched: batch × channel of `y` × channel of `x`. -/
private abbrev table (c : Dev nD) : Cert.PairDist.SOut.Idx → EReal :=
  Cert.PairDist.expanded (m ((c.tc : Thread nD τ).loc main_arg0)) (m ((c.tc : Thread nD τ).loc main_arg1))

/-- Where the result window's block sits at grid point `t`: at block index (t / 4, 0, 0), i.e. at the point's batch. -/
private theorem out_index : ∀ t : Fin cfg0.N, win0_2.index t (0 : Fin 3) = t.val / 4
    ∧ win0_2.index t (1 : Fin 3) = 0 ∧ win0_2.index t (2 : Fin 3) = 0 :=
  (by decide +kernel : ∀ t : Fin grid0.N, _)

/-- At a batch's last tile, entry `j = (0, j₁, j₂)` of the staging block is the table's entry at (batch, j₁, j₂):
    the first coordinate ranges over one value only, and the rest is the running sums' closing value. -/
private theorem block_entry (c : Dev nD) (t : Fin cfg0.N) (h3 : t.val % 4 = 3) (j : S1x4x4.Idx) :
    (outsAt0 m c t.val t.isLt).1 j = table m c (ix3 (batchOf t) (j 1) (j 2)) := by
  obtain ⟨a, i, k, rfl⟩ : ∃ (a : Fin 1) (i k : Fin 4), j = ix3 a i k := ⟨j 0, j 1, j 2, eq_ix3 j⟩
  obtain rfl : a = 0 := Subsingleton.elim _ _
  exact out_last m c t h3 i k

/-- What a grid point writes back is its block of the table. A point writes back only at a batch's last tile
    (t % 4 = 3); the block's entry (0, j₁, j₂) sits in the array at (block index × block size + j), which is
    (t / 4, j₁, j₂) — the entry the staging block holds there. -/
private theorem flushed_eq (c : Dev nD) (t : Fin cfg0.N) (hf : (cfg0.win 2).flush t = true) :
    (dats m 0 c).flushed 2 t = ((cfg0.win 2).blk t).view.read (Elt Ideal) (table m c) := by
  have h3 : t.val % 4 = 3 := (flush0_2 t).mp hf
  show (cfg0.win 2).cut (grid0.coords t) ((dats m 0 c).after 2 t) = _
  rw [after0_2]
  funext j
  refine (block_entry m c t h3 j).trans ?_
  show table m c _ = table m c (((cfg0.win 2).blk t).view.emb j)
  refine congrArg (table m c) ?_
  obtain ⟨e0, e1, e2⟩ := out_index t
  funext a
  apply Fin.ext
  match a with
  | ⟨0, _⟩ => show t.val / 4 = win0_2.index t (0 : Fin 3) * 1 + 1 * (j 0).val
              have hj : (j 0).val < 1 := (j 0).isLt
              omega
  | ⟨1, _⟩ => show (j 1).val = win0_2.index t (1 : Fin 3) * 4 + 1 * (j 1).val; omega
  | ⟨2, _⟩ => show (j 2).val = win0_2.index t (2 : Fin 3) * 4 + 1 * (j 2).val; omega

/-- An entry of the table lies in a grid point's block exactly when, on every axis, its coordinate is in the range
    block index × block size ≤ · < block index × block size + block size. -/
private theorem mem_block (t : Fin cfg0.N) (i : S8x4x4.Idx) :
    i ∈ ((cfg0.win 2).blk t).view.set ↔ ∀ a : Fin 3, win0_2.index t a * S1x4x4.size a ≤ (i a).val ∧ (i a).val < win0_2.index t a * S1x4x4.size a + S1x4x4.size a := by
  show i ∈ ((View.whole main_v0).slice (win0_2.rect t)).set ↔ _
  rw [View.set_slice_whole, Rect.mem_set_unit]
  exact Iff.rfl

/-- Entry (b, i, j) of the table lies in the block written back at batch `b`'s last tile, the point 4·b + 3:
    that point's block index is ((4·b + 3) / 4, 0, 0) = (b, 0, 0), and the block spans all of the last two axes. -/
private theorem covered (i : S8x4x4.Idx) :
    ∃ t : Fin cfg0.N, (cfg0.win 2).flush t = true ∧ i ∈ ((cfg0.win 2).blk t).view.set := by
  have hN : cfg0.N = 32 := N_0
  have hb : (i 0).val < 8 := (i 0).isLt
  have hi1 : (i 1).val < 4 := (i 1).isLt
  have hi2 : (i 2).val < 4 := (i 2).isLt
  have ht : 4 * (i 0).val + 3 < cfg0.N := by omega
  obtain ⟨e0, e1, e2⟩ := out_index ⟨4 * (i 0).val + 3, ht⟩
  have e0' : win0_2.index ⟨4 * (i 0).val + 3, ht⟩ (0 : Fin 3) = (4 * (i 0).val + 3) / 4 := e0
  refine ⟨⟨4 * (i 0).val + 3, ht⟩, (flush0_2 _).mpr (by show (4 * (i 0).val + 3) % 4 = 3; omega), ?_⟩
  rw [mem_block]
  intro a
  match a with
  | ⟨0, _⟩ => show win0_2.index ⟨4 * (i 0).val + 3, ht⟩ (0 : Fin 3) * 1 ≤ (i 0).val ∧ (i 0).val < win0_2.index ⟨4 * (i 0).val + 3, ht⟩ (0 : Fin 3) * 1 + 1
              omega
  | ⟨1, _⟩ => show win0_2.index ⟨4 * (i 0).val + 3, ht⟩ (1 : Fin 3) * 4 ≤ (i 1).val ∧ (i 1).val < win0_2.index ⟨4 * (i 0).val + 3, ht⟩ (1 : Fin 3) * 4 + 4
              omega
  | ⟨2, _⟩ => show win0_2.index ⟨4 * (i 0).val + 3, ht⟩ (2 : Fin 3) * 4 ≤ (i 2).val ∧ (i 2).val < win0_2.index ⟨4 * (i 0).val + 3, ht⟩ (2 : Fin 3) * 4 + 4
              omega

/-- Every written block is the table's, and the written blocks cover the table: the result array ends holding it. -/
private theorem final (c : Dev nD) : (dats m 0 c).arrAt 2 cfg0.N = table m c :=
  (dats m 0 c).arrAt_eq_of_cover 2 (table m c) (flushed_eq m c) covered

/-! ## The operations after the region -/

/-- What the operations after the region find in the result window's array: the distance table. -/
private theorem region_table (c : Dev nD) :
    Pipeline.withArrays (cfgs 0).spec c (V0 m c) (fun w => (dats m 0 c).arrAt w (cfgs 0).N) (Proc.devRef .tc main_v0)
      = table m c :=
  (Pipeline.withArrays_arr spec0 launch0.win.arr_inj c _ _ 2).trans (final m c)

/-- The table of the 24 orderings is no array of the region, so the region leaves it as the one operation before the
    region set it: the constant `perms`. -/
private theorem region_perms (c : Dev nD) :
    Pipeline.withArrays (cfgs 0).spec c (V0 m c) (fun w => (dats m 0 c).arrAt w (cfgs 0).N) (Proc.devRef .tc main_c)
      = perms (F := Ideal) := by
  refine (Pipeline.withArrays_of_ne spec0 c _ _ main_c (by decide)).trans ?_
  dsimp only [Gen.V0]
  simp only [Gen.hostOps0, List.flatten_cons, List.flatten_nil, List.append_nil]
  after_results
  rfl

/-- The 27 operations after the region, composed: the closing stretch applied to the distance table. Each operation
    reads buffers written earlier in the stretch, the result array, or the table of orderings; substituting the two
    facts above for the last two gives `tailTerm` with its definitions opened. -/
private theorem tail_eq (c : Dev nD) :
    Pipeline.afterTail₀ cfgs (dats m) 0 (V0 m) [hostOps1] c main_v20 = tailTerm (F := Ideal) (table m c) := by
  unfold Pipeline.afterTail₀
  show StableHlo.after hostOps1 _ (Proc.devRef .tc main_v20) = _
  after_results
  rw [region_table, region_perms]
  unfold tailTerm startIdx rowIdxWrapped permsWrapped rowIdx
  rfl

/-! ## The run -/

/-- Every weakly fair execution of the kernel program terminates with its result at the closing stretch applied to the
    expanded distance table of the two arguments, and leaves the arguments as they were. -/
theorem run : θ_run defs (onTc (τ := τ) (main (F := Ideal))) ⟨m, fun _ => 0, ρ⟩ fun r => ∀ c : Dev nD,
      r.2.mem ((c.tc : Thread nD τ).loc main_v20)
        = tailTerm (F := Ideal) (Cert.PairDist.expanded (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  -- the result is neither scoped nor an array of the region, so it ends at what the closing operations leave in it;
  -- an argument array is an input of the region, which leaves an input at its contents on entry, and no operation
  -- before the region writes it
  (θ_run defs _ _).mono (fun r h c =>
    ⟨((h c).2 main_v20 (Pipeline.mem_restRefs_of main_v20 rfl (by decide))).trans (tail_eq m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩)
    (run_main m ρ)

end Cert.KernelIdeal.Hand

end
-- ==== Proof.RefTerms.lean ====
/-
  The reference's first stretch as one term: both arguments spread over a batch × channel × channel × sample box,
  subtracted, squared, summed along the samples from zero, and divided by the number of samples.
-/
import proofs.«114583_j58583353917585_1_alg».proof.Proof.Gen.ReferenceIdeal
import Idealize.ShloMosaic.PureOps.Ideal

noncomputable section

namespace Cert.ReferenceIdeal.Hand

open Idealize.ShloMosaic Cert.ReferenceIdeal
open Cert.ReferenceIdeal.Facts₀ Cert.ReferenceIdeal.Facts

variable {F : FTy → Type} [FloatOps F]

/-- `x` placed at `(b, ·, j, t)` and repeated along the second axis. -/
def spreadX (X : (⟨S8x4x262144, .f32⟩ : BufTy).Contents (Elt F)) : (⟨S8x4x4x262144, .f32⟩ : BufTy).Contents (Elt F) :=
  broadcastInDim S8x4x4x262144 ![0, 1, 2, 3] bcast_S8x1x4x262144_S8x4x4x262144_0_1_2_3
    (broadcastInDim S8x1x4x262144 ![0, 2, 3] bcast_S8x4x262144_S8x1x4x262144_0_2_3 X)

/-- `y` placed at `(b, i, ·, t)` and repeated along the third axis. -/
def spreadY (Y : (⟨S8x4x262144, .f32⟩ : BufTy).Contents (Elt F)) : (⟨S8x4x4x262144, .f32⟩ : BufTy).Contents (Elt F) :=
  broadcastInDim S8x4x4x262144 ![0, 1, 2, 3] bcast_S8x4x1x262144_S8x4x4x262144_0_1_2_3
    (broadcastInDim S8x4x1x262144 ![0, 1, 3] bcast_S8x4x262144_S8x4x1x262144_0_1_3 Y)

/-- The mean squared distance table as the reference's operations compose it. -/
def distsTerm (X Y : (⟨S8x4x262144, .f32⟩ : BufTy).Contents (Elt F)) : (⟨S8x4x4, .f32⟩ : BufTy).Contents (Elt F) :=
  Host.divf
    (Host.reduceAdd (mulf (subf (spreadX X) (spreadY Y)) (subf (spreadX X) (spreadY Y)))
      (constant S_ .f32 0x00000000#32) reducesTo_S8x4x4x262144_S8x4x4_d3 h_S_)
    (broadcastInDim S8x4x4 ![] bcast_S_S8x4x4 (constant S_ .f32 0x48800000#32))

/-- The row numbers 0..3 laid along a `1 × 4` row. -/
def rowIdx : (⟨S1x4, .i32⟩ : BufTy).Contents (Elt F) :=
  (broadcastInDim S1x4 ![1] bcast_S4_S1x4_1 : (⟨S4, .i32⟩ : BufTy).Contents (Elt F) → (⟨S1x4, .i32⟩ : BufTy).Contents (Elt F)) (iotaInDim S4 32 0)

/-- The same with a negative entry moved up by 4 (the wrap-around of a Python index). -/
def rowIdxWrapped : (⟨S1x4, .i32⟩ : BufTy).Contents (Elt F) :=
  (select : (⟨S1x4, .i1⟩ : BufTy).Contents (Elt F) → (⟨S1x4, .i32⟩ : BufTy).Contents (Elt F) → (⟨S1x4, .i32⟩ : BufTy).Contents (Elt F) → (⟨S1x4, .i32⟩ : BufTy).Contents (Elt F))
    ((cmpi .slt : (⟨S1x4, .i32⟩ : BufTy).Contents (Elt F) → (⟨S1x4, .i32⟩ : BufTy).Contents (Elt F) → (⟨S1x4, .i1⟩ : BufTy).Contents (Elt F)) (rowIdx (F := F))
      ((broadcastInDim S1x4 ![] bcast_S_S1x4 : (⟨S_, .i32⟩ : BufTy).Contents (Elt F) → (⟨S1x4, .i32⟩ : BufTy).Contents (Elt F)) (constantI S_ 32 0#32)))
    ((addi : (⟨S1x4, .i32⟩ : BufTy).Contents (Elt F) → (⟨S1x4, .i32⟩ : BufTy).Contents (Elt F) → (⟨S1x4, .i32⟩ : BufTy).Contents (Elt F)) (rowIdx (F := F))
      ((broadcastInDim S1x4 ![] bcast_S_S1x4 : (⟨S_, .i32⟩ : BufTy).Contents (Elt F) → (⟨S1x4, .i32⟩ : BufTy).Contents (Elt F)) (constantI S_ 32 4#32)))
    (rowIdx (F := F))

/-- The 24 orderings of four channels, one per row. -/
def perms : (⟨S24x4, .i32⟩ : BufTy).Contents (Elt F) := fun i => lit0 (S24x4.rowMajor i)

/-- The same with a negative entry moved up by 4. -/
def permsWrapped : (⟨S24x4, .i32⟩ : BufTy).Contents (Elt F) :=
  (select : (⟨S24x4, .i1⟩ : BufTy).Contents (Elt F) → (⟨S24x4, .i32⟩ : BufTy).Contents (Elt F) → (⟨S24x4, .i32⟩ : BufTy).Contents (Elt F) → (⟨S24x4, .i32⟩ : BufTy).Contents (Elt F))
    ((cmpi .slt : (⟨S24x4, .i32⟩ : BufTy).Contents (Elt F) → (⟨S24x4, .i32⟩ : BufTy).Contents (Elt F) → (⟨S24x4, .i1⟩ : BufTy).Contents (Elt F)) (perms (F := F))
      ((broadcastInDim S24x4 ![] bcast_S_S24x4 : (⟨S_, .i32⟩ : BufTy).Contents (Elt F) → (⟨S24x4, .i32⟩ : BufTy).Contents (Elt F)) (constantI S_ 32 0#32)))
    ((addi : (⟨S24x4, .i32⟩ : BufTy).Contents (Elt F) → (⟨S24x4, .i32⟩ : BufTy).Contents (Elt F) → (⟨S24x4, .i32⟩ : BufTy).Contents (Elt F)) (perms (F := F))
      ((broadcastInDim S24x4 ![] bcast_S_S24x4 : (⟨S_, .i32⟩ : BufTy).Contents (Elt F) → (⟨S24x4, .i32⟩ : BufTy).Contents (Elt F)) (constantI S_ 32 4#32)))
    (perms (F := F))

/-- For ordering `p` and position `r`: the pair (row `r`, column `p r`) at which the distance table is read. -/
def startIdx : (⟨S24x4x2, .i32⟩ : BufTy).Contents (Elt F) :=
  concatenate S24x4x2 2
    [⟨S24x4x1, (broadcastInDim S24x4x1 ![0, 1] bcast_S24x4_S24x4x1_0_1 : (⟨S24x4, .i32⟩ : BufTy).Contents (Elt F) → (⟨S24x4x1, .i32⟩ : BufTy).Contents (Elt F))
        ((broadcastInDim S24x4 ![0, 1] bcast_S1x4_S24x4_0_1 : (⟨S1x4, .i32⟩ : BufTy).Contents (Elt F) → (⟨S24x4, .i32⟩ : BufTy).Contents (Elt F)) (rowIdxWrapped (F := F)))⟩,
     ⟨S24x4x1, (broadcastInDim S24x4x1 ![0, 1] bcast_S24x4_S24x4x1_0_1 : (⟨S24x4, .i32⟩ : BufTy).Contents (Elt F) → (⟨S24x4x1, .i32⟩ : BufTy).Contents (Elt F)) (permsWrapped (F := F))⟩]
    concatenates_S24x4x1_S24x4x1_S24x4x2_d2

/-- What both programs do with a distance table `d`: for every batch and every ordering of the channels add the four
    distances the ordering pairs up, take the least such total per batch, and add the eight minima. -/
def tailTerm (d : (⟨S8x4x4, .f32⟩ : BufTy).Contents (Elt F)) : (⟨S_, .f32⟩ : BufTy).Contents (Elt F) :=
  Host.reduceAdd
    (Host.reduce FloatOps.minimumf
      (Host.reduceAdd (Host.gather gather_S8x4x4_S24x4x2_S8x24x4_0_12_n_n_12_2_811 d (startIdx (F := F)))
        (constant S_ .f32 0x00000000#32) reducesTo_S8x24x4_S8x24_d2 h_S_)
      (constant S_ .f32 0x7F800000#32) reducesTo_S8x24_S8_d1 h_S_)
    (constant S_ .f32 0x00000000#32) reducesTo_S8_S_d0 h_S_

end Cert.ReferenceIdeal.Hand

end
-- ==== Proof.RefRun.lean ====
/-
  The reference program run: its operations in order, and what its result buffer holds when they have all run.
-/
import proofs.«114583_j58583353917585_1_alg».proof.Proof.RefTerms
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 39 host operations of the reference, in program order. -/
abbrev ops : List (HloOp τ sig (Elt F)) :=
  [ nullary main_c (fun i => lit0 (S24x4.rowMajor i)),
    unary main_arg0 main_v0 (broadcastInDim S8x1x4x262144 ![0, 2, 3] bcast_S8x4x262144_S8x1x4x262144_0_2_3 : (⟨S8x4x262144, .f32⟩ : BufTy).Contents (Elt F) → (⟨S8x1x4x262144, .f32⟩ : BufTy).Contents (Elt F)),
    unary main_arg1 main_v1 (broadcastInDim S8x4x1x262144 ![0, 1, 3] bcast_S8x4x262144_S8x4x1x262144_0_1_3 : (⟨S8x4x262144, .f32⟩ : BufTy).Contents (Elt F) → (⟨S8x4x1x262144, .f32⟩ : BufTy).Contents (Elt F)),
    unary main_v0 main_v2 (broadcastInDim S8x4x4x262144 ![0, 1, 2, 3] bcast_S8x1x4x262144_S8x4x4x262144_0_1_2_3 : (⟨S8x1x4x262144, .f32⟩ : BufTy).Contents (Elt F) → (⟨S8x4x4x262144, .f32⟩ : BufTy).Contents (Elt F)),
    unary main_v1 main_v3 (broadcastInDim S8x4x4x262144 ![0, 1, 2, 3] bcast_S8x4x1x262144_S8x4x4x262144_0_1_2_3 : (⟨S8x4x1x262144, .f32⟩ : BufTy).Contents (Elt F) → (⟨S8x4x4x262144, .f32⟩ : BufTy).Contents (Elt F)),
    binary main_v2 main_v3 main_v4 (subf : (⟨S8x4x4x262144, .f32⟩ : BufTy).Contents (Elt F) → (⟨S8x4x4x262144, .f32⟩ : BufTy).Contents (Elt F) → (⟨S8x4x4x262144, .f32⟩ : BufTy).Contents (Elt F)),
    binary main_v4 main_v4 main_v5 (mulf : (⟨S8x4x4x262144, .f32⟩ : BufTy).Contents (Elt F) → (⟨S8x4x4x262144, .f32⟩ : BufTy).Contents (Elt F) → (⟨S8x4x4x262144, .f32⟩ : BufTy).Contents (Elt F)),
    nullary main_cst (constant S_ .f32 0x00000000#32),
    binary main_v5 main_cst main_v6 ((fun x v => Host.reduceAdd x v reducesTo_S8x4x4x262144_S8x4x4_d3 h_S_) : (⟨S8x4x4x262144, .f32⟩ : BufTy).Contents (Elt F) → (⟨S_, .f32⟩ : BufTy).Contents (Elt F) → (⟨S8x4x4, .f32⟩ : BufTy).Contents (Elt F)),
    nullary main_cst_0 (constant S_ .f32 0x48800000#32),
    unary main_cst_0 main_v7 (broadcastInDim S8x4x4 ![] bcast_S_S8x4x4 : (⟨S_, .f32⟩ : BufTy).Contents (Elt F) → (⟨S8x4x4, .f32⟩ : BufTy).Contents (Elt F)),
    binary main_v6 main_v7 main_v8 (Host.divf : (⟨S8x4x4, .f32⟩ : BufTy).Contents (Elt F) → (⟨S8x4x4, .f32⟩ : BufTy).Contents (Elt F) → (⟨S8x4x4, .f32⟩ : BufTy).Contents (Elt F)),
    nullary main_v9 (iotaInDim S4 32 0),
    unary main_v9 main_v10 (broadcastInDim S1x4 ![1] bcast_S4_S1x4_1 : (⟨S4, .i32⟩ : BufTy).Contents (Elt F) → (⟨S1x4, .i32⟩ : BufTy).Contents (Elt F)),
    nullary main_c_1 (constantI S_ 32 0#32),
    unary main_c_1 main_v11 (broadcastInDim S1x4 ![] bcast_S_S1x4 : (⟨S_, .i32⟩ : BufTy).Contents (Elt F) → (⟨S1x4, .i32⟩ : BufTy).Contents (Elt F)),
    binary main_v10 main_v11 main_v12 (cmpi .slt : (⟨S1x4, .i32⟩ : BufTy).Contents (Elt F) → (⟨S1x4, .i32⟩ : BufTy).Contents (Elt F) → (⟨S1x4, .i1⟩ : BufTy).Contents (Elt F)),
    nullary main_c_2 (constantI S_ 32 4#32),
    unary main_c_2 main_v13 (broadcastInDim S1x4 ![] bcast_S_S1x4 : (⟨S_, .i32⟩ : BufTy).Contents (Elt F) → (⟨S1x4, .i32⟩ : BufTy).Contents (Elt F)),
    binary main_v10 main_v13 main_v14 (addi : (⟨S1x4, .i32⟩ : BufTy).Contents (Elt F) → (⟨S1x4, .i32⟩ : BufTy).Contents (Elt F) → (⟨S1x4, .i32⟩ : BufTy).Contents (Elt F)),
    ternary main_v12 main_v14 main_v10 main_v15 (select : (⟨S1x4, .i1⟩ : BufTy).Contents (Elt F) → (⟨S1x4, .i32⟩ : BufTy).Contents (Elt F) → (⟨S1x4, .i32⟩ : BufTy).Contents (Elt F) → (⟨S1x4, .i32⟩ : BufTy).Contents (Elt F)),
    nullary main_c_3 (constantI S_ 32 0#32),
    unary main_c_3 main_v16 (broadcastInDim S24x4 ![] bcast_S_S24x4 : (⟨S_, .i32⟩ : BufTy).Contents (Elt F) → (⟨S24x4, .i32⟩ : BufTy).Contents (Elt F)),
    binary main_c main_v16 main_v17 (cmpi .slt : (⟨S24x4, .i32⟩ : BufTy).Contents (Elt F) → (⟨S24x4, .i32⟩ : BufTy).Contents (Elt F) → (⟨S24x4, .i1⟩ : BufTy).Contents (Elt F)),
    nullary main_c_4 (constantI S_ 32 4#32),
    unary main_c_4 main_v18 (broadcastInDim S24x4 ![] bcast_S_S24x4 : (⟨S_, .i32⟩ : BufTy).Contents (Elt F) → (⟨S24x4, .i32⟩ : BufTy).Contents (Elt F)),
    binary main_c main_v18 main_v19 (addi : (⟨S24x4, .i32⟩ : BufTy).Contents (Elt F) → (⟨S24x4, .i32⟩ : BufTy).Contents (Elt F) → (⟨S24x4, .i32⟩ : BufTy).Contents (Elt F)),
    ternary main_v17 main_v19 main_c main_v20 (select : (⟨S24x4, .i1⟩ : BufTy).Contents (Elt F) → (⟨S24x4, .i32⟩ : BufTy).Contents (Elt F) → (⟨S24x4, .i32⟩ : BufTy).Contents (Elt F) → (⟨S24x4, .i32⟩ : BufTy).Contents (Elt F)),
    unary main_v15 main_v21 (broadcastInDim S24x4 ![0, 1] bcast_S1x4_S24x4_0_1 : (⟨S1x4, .i32⟩ : BufTy).Contents (Elt F) → (⟨S24x4, .i32⟩ : BufTy).Contents (Elt F)),
    unary main_v21 main_v22 (broadcastInDim S24x4x1 ![0, 1] bcast_S24x4_S24x4x1_0_1 : (⟨S24x4, .i32⟩ : BufTy).Contents (Elt F) → (⟨S24x4x1, .i32⟩ : BufTy).Contents (Elt F)),
    unary main_v20 main_v23 (broadcastInDim S24x4x1 ![0, 1] bcast_S24x4_S24x4x1_0_1 : (⟨S24x4, .i32⟩ : BufTy).Contents (Elt F) → (⟨S24x4x1, .i32⟩ : BufTy).Contents (Elt F)),
    binary main_v22 main_v23 main_v24 ((fun a b => concatenate S24x4x2 2 [⟨S24x4x1, a⟩, ⟨S24x4x1, b⟩] concatenates_S24x4x1_S24x4x1_S24x4x2_d2) : (⟨S24x4x1, .i32⟩ : BufTy).Contents (Elt F) → (⟨S24x4x1, .i32⟩ : BufTy).Contents (Elt F) → (⟨S24x4x2, .i32⟩ : BufTy).Contents (Elt F)),
    binary main_v8 main_v24 main_v25 ((fun x i => Host.gather gather_S8x4x4_S24x4x2_S8x24x4_0_12_n_n_12_2_811 x i) : (⟨S8x4x4, .f32⟩ : BufTy).Contents (Elt F) → (⟨S24x4x2, .i32⟩ : BufTy).Contents (Elt F) → (⟨S8x24x4, .f32⟩ : BufTy).Contents (Elt F)),
    nullary main_cst_5 (constant S_ .f32 0x00000000#32),
    binary main_v25 main_cst_5 main_v26 ((fun x v => Host.reduceAdd x v reducesTo_S8x24x4_S8x24_d2 h_S_) : (⟨S8x24x4, .f32⟩ : BufTy).Contents (Elt F) → (⟨S_, .f32⟩ : BufTy).Contents (Elt F) → (⟨S8x24, .f32⟩ : BufTy).Contents (Elt F)),
    nullary main_cst_6 (constant S_ .f32 0x7F800000#32),
    binary main_v26 main_cst_6 main_v27 ((fun x v => Host.reduce FloatOps.minimumf x v reducesTo_S8x24_S8_d1 h_S_) : (⟨S8x24, .f32⟩ : BufTy).Contents (Elt F) → (⟨S_, .f32⟩ : BufTy).Contents (Elt F) → (⟨S8, .f32⟩ : BufTy).Contents (Elt F)),
    nullary main_cst_7 (constant S_ .f32 0x00000000#32),
    binary main_v27 main_cst_7 main_v28 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)) ]

set_option maxRecDepth 16384 in
/-- The reference program is exactly the sequence of these operations. -/
theorem main_eq (c : Dev nD) : main (F := F) c = seq ops := rfl
/-- No buffer of the signature is scoped. -/
theorem scopedRefs_eq : (Finset.univ.filter fun b : Ref sig .tc => b.isScoped) = ∅ := by decide
/-- No semaphore of the signature is scoped. -/
theorem scopedSems_eq : (Finset.univ.filter fun sm : SemLoc sig => sm.isScoped .tc) = ∅ := by decide
/-- Every operation touches only buffers of the host core. -/
theorem ops_sub : (ops : List (HloOp τ sig (Elt F))).Forall fun op => op.bufs ⊆ tcRefs τ sig :=
  ⟨nullary_bufs_sub .., unary_bufs_sub .., unary_bufs_sub .., unary_bufs_sub .., unary_bufs_sub .., binary_bufs_sub .., binary_bufs_sub .., nullary_bufs_sub .., binary_bufs_sub .., nullary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., nullary_bufs_sub .., binary_bufs_sub .., nullary_bufs_sub .., binary_bufs_sub .., nullary_bufs_sub .., binary_bufs_sub ..⟩

set_option maxHeartbeats 2000000 in
/-- After all the operations the result buffer holds the closing stretch applied to the distance table of the two
    arguments: each operation's result read back at its own buffer, every other buffer as it was. -/
private theorem after_result (m : (ℓ : Loc nD τ sig) → Buf (Elt F) ℓ) (c : Dev nD) :
    after (ops (F := F)) (launchContents m c) (Proc.devRef .tc main_v28)
      = tailTerm (F := F) (distsTerm (F := F) (m ((c.tc : Thread nD τ).loc main_arg0)) (m ((c.tc : Thread nD τ).loc main_arg1))) := by
  after_results_simp
  repeat (first
               | rw [nullary_result] | rw [unary_result] | rw [binary_result] | rw [ternary_result]
               | (rw [nullary_result_ne]; rotate_left; decide)
               | (rw [unary_result_ne]; rotate_left; decide)
               | (rw [binary_result_ne]; rotate_left; decide)
               | (rw [ternary_result_ne]; rotate_left; decide))
  rfl

set_option maxHeartbeats 1000000 in
/-- No operation writes the first argument. -/
private theorem after_arg0 (m : (ℓ : Loc nD τ sig) → Buf (Elt F) ℓ) (c : Dev nD) :
    after (ops (F := F)) (launchContents m c) (Proc.devRef .tc main_arg0) = m ((c.tc : Thread nD τ).loc main_arg0) := by
  after_results_simp

set_option maxHeartbeats 1000000 in
/-- No operation writes the second argument. -/
private theorem after_arg1 (m : (ℓ : Loc nD τ sig) → Buf (Elt F) ℓ) (c : Dev nD) :
    after (ops (F := F)) (launchContents m c) (Proc.devRef .tc main_arg1) = m ((c.tc : Thread nD τ).loc main_arg1) := by
  after_results_simp

/-- Every weakly fair execution of the reference terminates with its result at the closing stretch applied to the
    distance table of the two arguments, and leaves the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28)
        = tailTerm (F := F) (distsTerm (F := F) (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v28).trans (after_result m c),
      (h c main_arg0).trans (after_arg0 m c),
      (h c main_arg1).trans (after_arg1 m c)⟩)
    (run_seq scopedRefs_eq scopedSems_eq defs main (fun _ => ops) main_eq (fun _ => ops_sub) m ρ)

end Cert.ReferenceIdeal.Hand

end
-- ==== Proof.RefValue.lean ====
/-
  The reference's distance table read at `(b, i, j)`: zero plus the sum over all samples of `(x_j − y_i)²`, over the number of samples.
-/
import proofs.«114583_j58583353917585_1_alg».proof.Proof.RefTerms
import proofs.«114583_j58583353917585_1_alg».proof.Proof.Spec
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.ReferenceIdeal.Hand

open Idealize.ShloMosaic Idealize.ShloMosaic.ValueIdx Cert.ReferenceIdeal

/-- `x` spread over the box, read at `(b, i, j, t)`, is `x` at `(b, j, t)`: the inserted second axis has one entry,
    and the repetition along it forgets `i`. -/
private theorem spreadX_apply (X : (⟨S8x4x262144, .f32⟩ : BufTy).Contents (Elt Ideal)) (b : Fin 8) (i j : Fin 4) (t : Fin 262144) :
    spreadX (F := Ideal) X (ix4 b i j t) = X (ix3 b j t) := by
  unfold spreadX
  rw [broadcastInDim_apply ![0, 1, 2, 3] _ _ (ix4 b i j t) (ix4 b (0 : Fin 1) j t) (by
    intro a
    match a with
    | ⟨0, _⟩ => rfl
    | ⟨1, _⟩ => rfl
    | ⟨2, _⟩ => rfl
    | ⟨3, _⟩ => rfl)]
  rw [broadcastInDim_apply ![0, 2, 3] _ _ (ix4 b (0 : Fin 1) j t) (ix3 b j t) (by
    intro a
    match a with
    | ⟨0, _⟩ => rfl
    | ⟨1, _⟩ => rfl
    | ⟨2, _⟩ => rfl)]

/-- `y` spread over the box, read at `(b, i, j, t)`, is `y` at `(b, i, t)`: the inserted third axis has one entry,
    and the repetition along it forgets `j`. -/
private theorem spreadY_apply (Y : (⟨S8x4x262144, .f32⟩ : BufTy).Contents (Elt Ideal)) (b : Fin 8) (i j : Fin 4) (t : Fin 262144) :
    spreadY (F := Ideal) Y (ix4 b i j t) = Y (ix3 b i t) := by
  unfold spreadY
  rw [broadcastInDim_apply ![0, 1, 2, 3] _ _ (ix4 b i j t) (ix4 b i (0 : Fin 1) t) (by
    intro a
    match a with
    | ⟨0, _⟩ => rfl
    | ⟨1, _⟩ => rfl
    | ⟨2, _⟩ => rfl
    | ⟨3, _⟩ => rfl)]
  rw [broadcastInDim_apply ![0, 1, 3] _ _ (ix4 b i (0 : Fin 1) t) (ix3 b i t) (by
    intro a
    match a with
    | ⟨0, _⟩ => rfl
    | ⟨1, _⟩ => rfl
    | ⟨2, _⟩ => rfl)]

/-- The index of the box lying over `(b, i, j)` with sample `t` inserted on the summed axis is `(b, i, j, t)`. -/
private theorem lift_eq (h : S8x4x4x262144.Reduces [3] S8x4x4) (b : Fin 8) (i j : Fin 4) (t : Fin 262144) :
    h.lift (ix3 b i j) t = ix4 b i j t := by
  funext a
  match a with
  | ⟨0, _⟩ => rfl
  | ⟨1, _⟩ => rfl
  | ⟨2, _⟩ => rfl
  | ⟨3, _⟩ => rfl

/-- The direct form read at `(b, i, j)`. -/
private theorem direct_apply (X Y : Cert.PairDist.SArg.Idx → EReal) (b : Fin 8) (i j : Fin 4) :
    Cert.PairDist.direct X Y (ix3 b i j)
      = Ideal.div (Ideal.ofBits .f32 0x00000000#32
          + ∑ t : Fin 262144, (X (ix3 b j t) - Y (ix3 b i t)) * (X (ix3 b j t) - Y (ix3 b i t))) Cert.PairDist.len := rfl

/-- At the extended reals the reference's table is the direct form of the mean squared distance. -/
theorem distsTerm_eq (X Y : (⟨S8x4x262144, .f32⟩ : BufTy).Contents (Elt Ideal)) :
    distsTerm (F := Ideal) X Y = Cert.PairDist.direct X Y := by
  funext d
  obtain ⟨b, i, j, rfl⟩ : ∃ (b : Fin 8) (i j : Fin 4), d = ix3 b i j := ⟨d 0, d 1, d 2, eq_ix3 d⟩
  have hred : S8x4x4x262144.Reduces [3] S8x4x4 := by decide
  rw [direct_apply]
  unfold distsTerm
  rw [hostDivf_apply, hostReduceAdd_apply, broadcastInDim_scalar_apply, constant_apply, constant_apply,
    Ideal.hostReduceAdd_single _ hred]
  -- each summand of the reduction is the squared difference at sample `t`
  have hterm : ∀ t : Fin 262144,
      (mulf (subf (spreadX X) (spreadY Y)) (subf (spreadX X) (spreadY Y)) : (⟨S8x4x4x262144, .f32⟩ : BufTy).Contents (Elt Ideal))
          (hred.lift (ix3 b i j) t)
        = (X (ix3 b j t) - Y (ix3 b i t)) * (X (ix3 b j t) - Y (ix3 b i t)) := by
    intro t
    rw [lift_eq, mulf_apply, subf_apply, spreadX_apply, spreadY_apply]
  unfold Cert.PairDist.len
  exact congrArg (fun s => Ideal.div (Ideal.ofBits .f32 0x00000000#32 + s) (Ideal.ofBits .f32 0x48800000#32))
    (Finset.sum_congr rfl fun t _ => hterm t)

end Cert.ReferenceIdeal.Hand

end
-- ==== Proof.Expand.lean ====
/-
  Expanding the square: over real-valued arrays the expanded form and the direct form of the mean squared distance agree.
-/
import proofs.«114583_j58583353917585_1_alg».proof.Proof.Spec
import Mathlib.Data.EReal.Basic
import Mathlib.Data.EReal.Operations
import Mathlib.Data.Fintype.BigOperators
import Mathlib.Algebra.BigOperators.Ring.Finset
import Mathlib.Tactic.Ring
import Mathlib.Tactic.NormNum

noncomputable section

open scoped BigOperators

namespace Cert.PairDist

open Idealize.ShloMosaic Idealize.ShloMosaic.ValueIdx

/-- The coercion from the reals into the extended reals commutes with finite sums. -/
private theorem coe_sum {ι : Type} (s : Finset ι) (f : ι → ℝ) :
    ((∑ k ∈ s, f k : ℝ) : EReal) = ∑ k ∈ s, (f k : EReal) := by
  classical
  induction s using Finset.induction_on with
  | empty => rw [Finset.sum_empty, Finset.sum_empty, EReal.coe_zero]
  | insert a s ha ih => rw [Finset.sum_insert ha, Finset.sum_insert ha, EReal.coe_add, ih]

/-- The pattern of `2.0` denotes the real number 2. -/
private theorem two_eq : two = ((2 : ℝ) : EReal) := by
  simp [two, Ideal.ofBits, Ideal.ieee, -EReal.coe_mul]; norm_num

/-- Tile `k`, sample `l` ↦ position `65536·k + l` is a bijection onto the 262144 positions:
    the inverse is quotient and remainder by 65536. -/
private def tileEquiv : Fin 4 × Fin 65536 ≃ Fin 262144 where
  toFun p := sample p.1 p.2
  invFun t := (⟨t.val / 65536, by have := t.isLt; omega⟩, ⟨t.val % 65536, by omega⟩)
  left_inv := by
    rintro ⟨k, l⟩
    have hk := k.isLt
    have hl := l.isLt
    refine Prod.ext (Fin.ext ?_) (Fin.ext ?_)
    · show (65536 * k.val + l.val) / 65536 = k.val
      omega
    · show (65536 * k.val + l.val) % 65536 = l.val
      omega
  right_inv := by
    intro t
    refine Fin.ext ?_
    show 65536 * (t.val / 65536) + t.val % 65536 = t.val
    omega

/-- Summing tile by tile is summing over all positions once. -/
private theorem tile_sum (f : Fin 262144 → ℝ) :
    ∑ k : Fin 4, ∑ l : Fin 65536, f (sample k l) = ∑ t : Fin 262144, f t := by
  rw [← Fintype.sum_prod_type' (fun k l => f (sample k l))]
  exact Equiv.sum_comp tileEquiv f

/-- Over the reals: Σ y² + Σ x² − 2 Σ y·x, each gathered tile by tile, is Σ (x − y)². -/
private theorem real_identity (x y : Fin 262144 → ℝ) :
    (∑ k : Fin 4, ∑ l : Fin 65536, y (sample k l) * y (sample k l)
        + ∑ k : Fin 4, ∑ l : Fin 65536, x (sample k l) * x (sample k l))
      - 2 * ∑ k : Fin 4, ∑ l : Fin 65536, y (sample k l) * x (sample k l)
      = ∑ t : Fin 262144, (x t - y t) * (x t - y t) := by
  rw [tile_sum (fun t => y t * y t), tile_sum (fun t => x t * x t), tile_sum (fun t => y t * x t),
    Finset.mul_sum, ← Finset.sum_add_distrib, ← Finset.sum_sub_distrib]
  exact Finset.sum_congr rfl fun t _ => by ring

/-- For arrays all of whose entries are real numbers,
    (Σ y² + Σ x² − 2 Σ y·x) / N = (0 + Σ (x − y)²) / N at every `(b, i, j)`:
    the tiles' samples `65536·k + l` run through all 262144 samples once, and over the reals
    `(x − y)² = y² + x² − 2·y·x` sums term by term. -/
theorem expanded_eq_direct (X Y : SArg.Idx → EReal) (hX : ∀ i, ∃ r : ℝ, X i = (r : EReal)) (hY : ∀ i, ∃ r : ℝ, Y i = (r : EReal)) :
    expanded X Y = direct X Y := by
  choose x hx using hX
  choose y hy using hY
  funext d
  unfold expanded direct
  refine congrArg (fun n => Ideal.div n len) ?_
  unfold sqSum crossSum
  rw [Ideal.ofBits_zero_f32, zero_add, two_eq]
  simp only [hx, hy]
  simp only [← EReal.coe_mul, ← EReal.coe_sub, ← coe_sum, ← EReal.coe_add]
  exact congrArg Real.toEReal
    (real_identity (fun t => x (ix3 (d 0) (d 2) t)) (fun t => y (ix3 (d 0) (d 1) t)))

end Cert.PairDist

end
-- ==== Proof.Finite.lean ====
/-
  What the precondition says: both arguments hold real numbers only.
-/
import proofs.«114583_j58583353917585_1_alg».proof.Proof.Gen.Pre_finite_inputs
import Idealize.ShloMosaic.PureOps.Ideal
import Idealize.ShloMosaic.Lib.ValueIdx
import Idealize.ShloMosaic.Lib.ReduceAll

noncomputable section

namespace Cert.Finite

open Idealize.ShloMosaic Idealize.ShloMosaic.ValueIdx Cert.Pre_finite_inputs

/-- The rank-zero shape has exactly one index: two indices agree because there is no axis to differ on. -/
private instance : Subsingleton S_.Idx := ⟨fun a b => funext fun d => d.elim0⟩

/-- The single-precision pattern with every exponent bit set and sign and fraction clear denotes +∞. -/
private theorem ofBits_posInf : Ideal.ofBits .f32 0x7F800000#32 = (⊤ : EReal) := by
  simp [Ideal.ofBits, Ideal.ieee]

/-- An extended real whose absolute value max x (-x) lies strictly below +∞ is a real number:
    at ⊤ the maximum is ⊤ itself, at ⊥ the negation is ⊤, and ⊤ is not below ⊤. -/
private theorem real_of_abs_lt_top (x : EReal) (hx : max x (-x) < (⊤ : EReal)) : ∃ r : ℝ, x = (r : EReal) := by
  induction x using EReal.rec with
  | bot => exact absurd hx (by simp)
  | top => exact absurd hx (by simp)
  | coe r => exact ⟨r, rfl⟩

/-- The ordered "less than" comparison of two extended reals yields the bit 1 only when the strict inequality holds. -/
private theorem lt_of_cmp_olt (a b : EReal) (hc : Ideal.cmp .olt a b = 1#1) : a < b := by
  unfold Ideal.cmp at hc
  by_contra hn
  simp [hn] at hc

/-- If "every |entry| is below +∞, in both arrays" evaluates to true, every entry of both arrays is a real number. -/
theorem real_of_pre (X Y : FVec Ideal S8x4x262144 .f32)
    (h : Cert.Pre_finite_inputs.fn (F := Ideal) X Y = fun _ => 1#1) :
    (∀ i, ∃ r : ℝ, X i = (r : EReal)) ∧ (∀ i, ∃ r : ℝ, Y i = (r : EReal)) := by
  -- read the predicate at its one index; the final "and" being 1 makes both conjunct bits 1
  have h0 := congrFun h ValueIdx.ix0
  dsimp only [Cert.Pre_finite_inputs.fn] at h0
  obtain ⟨hx, hy⟩ := IntOp.andi_eq_one.1 h0
  refine ⟨fun i => ?_, fun i => ?_⟩
  · -- an "and" over all three axes that is 1 had a 1 at every entry: |X i| < +∞
    have e := Host.reduce_andi_all _ _ _ _ _ hx i
    rw [cmpf_apply] at e
    apply real_of_abs_lt_top
    have hlt := lt_of_cmp_olt _ _ e
    rw [← ofBits_posInf]
    exact hlt
  · -- the same for the second array: |Y i| < +∞
    have e := Host.reduce_andi_all _ _ _ _ _ hy i
    rw [cmpf_apply] at e
    apply real_of_abs_lt_top
    have hlt := lt_of_cmp_olt _ _ e
    rw [← ofBits_posInf]
    exact hlt

end Cert.Finite

end
-- ==== Proof.TailEq.lean ====
/-
  The two programs close with the same operations: read as functions of the distance table they are one function.
-/
import proofs.«114583_j58583353917585_1_alg».proof.Proof.RefTerms
import proofs.«114583_j58583353917585_1_alg».proof.Proof.KernTerms

noncomputable section

namespace Cert.TailEq

open Idealize.ShloMosaic

/-- The table of the 24 orderings is spelled identically in both programs. -/
theorem lit_eq : Cert.KernelIdeal.lit0 = Cert.ReferenceIdeal.lit0 := by
  funext i; revert i; decide

/-- Hence the orderings, as an integer array, are the same array. -/
theorem perms_eq : Cert.KernelIdeal.Hand.perms (F := Ideal) = Cert.ReferenceIdeal.Hand.perms (F := Ideal) := by
  unfold Cert.KernelIdeal.Hand.perms Cert.ReferenceIdeal.Hand.perms
  rw [lit_eq]

/-- So are the index pairs at which the distance table is read. -/
theorem startIdx_eq : Cert.KernelIdeal.Hand.startIdx (F := Ideal) = Cert.ReferenceIdeal.Hand.startIdx (F := Ideal) := by
  unfold Cert.KernelIdeal.Hand.startIdx Cert.ReferenceIdeal.Hand.startIdx
    Cert.KernelIdeal.Hand.permsWrapped Cert.ReferenceIdeal.Hand.permsWrapped
  rw [perms_eq]
  rfl

/-- The closing stretch of the kernel program and of the reference are the same function of the distance table. -/
theorem tail_eq (d : (⟨Cert.KernelIdeal.S8x4x4, .f32⟩ : BufTy).Contents (Elt Ideal)) :
    Cert.KernelIdeal.Hand.tailTerm (F := Ideal) d = Cert.ReferenceIdeal.Hand.tailTerm (F := Ideal) d := by
  unfold Cert.KernelIdeal.Hand.tailTerm Cert.ReferenceIdeal.Hand.tailTerm
  rw [startIdx_eq]
  rfl

end Cert.TailEq

end
-- ==== Proof.lean ====
/-
  The kernel computes, per batch, the table of mean squared distances between every channel of `y` and every channel of
  `x` by expanding the square — three sums gathered tile by tile, then (Σ y² + Σ x² − 2 Σ y·x) / N — and hands the table
  to a short closing stretch (the least total over the orderings of the channels, summed over the batches). The reference
  forms (0 + Σ (x − y)²) / N directly and closes the same way. Over finite inputs the two tables are equal entry by
  entry, and the closing stretch is one function of the table, so the results agree.
-/
import proofs.«114583_j58583353917585_1_alg».proof.Defs
import proofs.«114583_j58583353917585_1_alg».proof.Proof.Gen.Kernel
import proofs.«114583_j58583353917585_1_alg».proof.Proof.Gen.Kernel.Frame
import proofs.«114583_j58583353917585_1_alg».proof.Proof.Gen.KernelIdeal
import proofs.«114583_j58583353917585_1_alg».proof.Proof.Gen.KernelIdeal.Frame
import proofs.«114583_j58583353917585_1_alg».proof.Proof.Gen.ReferenceIdeal
import proofs.«114583_j58583353917585_1_alg».proof.Proof.Gen.Pre_finite_inputs
import proofs.«114583_j58583353917585_1_alg».proof.Proof.KernelRun
import proofs.«114583_j58583353917585_1_alg».proof.Proof.RefRun
import proofs.«114583_j58583353917585_1_alg».proof.Proof.RefValue
import proofs.«114583_j58583353917585_1_alg».proof.Proof.Expand
import proofs.«114583_j58583353917585_1_alg».proof.Proof.Finite
import proofs.«114583_j58583353917585_1_alg».proof.Proof.TailEq
import Idealize.ShloMosaic.Adequacy
import Idealize.ShloMosaic.Init

noncomputable section

namespace Cert.Proof

open Idealize.ShloMosaic Idealize.SL.Sem

/-- The word-level kernel runs and leaves its arguments alone. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference runs and leaves its arguments alone: its run, with the result forgotten. -/
theorem frame_ri : Cert.frame_ReferenceIdeal := fun m ρ _ =>
  (θ_run Cert.ReferenceIdeal.defs _ _).mono (fun _ h c => (h c).2) (Cert.ReferenceIdeal.Hand.run (F := Ideal) m ρ)

/-- Both programs end at the closing stretch of a distance table; the kernel's table is the expanded form, the
    reference's the direct form, of arguments that agree and hold real numbers only. -/
theorem algebraic : Cert.algebraic_KernelIdeal_ReferenceIdeal := by
  intro m ρ m' ρ' hpre hagree
  refine ⟨fun c => Cert.KernelIdeal.Hand.tailTerm (F := Ideal)
      (Cert.PairDist.expanded (m ((c.tc : Thread Cert.KernelIdeal.nD Cert.KernelIdeal.τ).loc Cert.KernelIdeal.main_arg0))
        (m ((c.tc : Thread Cert.KernelIdeal.nD Cert.KernelIdeal.τ).loc Cert.KernelIdeal.main_arg1))),
    Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  obtain ⟨hX, hY⟩ := Cert.Finite.real_of_pre _ _ (hpre c)
  rw [(hagree c).1, (hagree c).2, Cert.ReferenceIdeal.Hand.distsTerm_eq,
    ← Cert.PairDist.expanded_eq_direct _ _ hX hY]
  exact (Cert.TailEq.tail_eq _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
